-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x64x2048 : Shape := ⟨4, ![2, 8, 64, 2048]⟩
abbrev S2 : Shape := ⟨1, ![2]⟩
abbrev S4x64x256x256 : Shape := ⟨4, ![4, 64, 256, 256]⟩
abbrev S_ : Shape := ⟨0, ![]⟩

class Facts : Prop where
  bcast_S_S2x8x64x2048 : S_.BroadcastsInDim S2x8x64x2048 (![] : Fin 0 → Fin S2x8x64x2048.rank)
  reducesTo_S2x8x64x2048_S_d0_1_2_3 : S2x8x64x2048.ReducesTo [0, 1, 2, 3] S_
  h_S_ : 0 < S_.numel
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  bcast_S_S2 : S_.BroadcastsInDim S2 (![] : Fin 0 → Fin S2.rank)
  reducesTo_S2_S_d0 : S2.ReducesTo [0] S_

variable [Facts]

def fn {F : FTy → Type} [FloatOps F] (main_arg0 : FVec F S2x8x64x2048 .f32) (main_arg1 : IVec S2 32) (main_arg2 : FVec F S4x64x256x256 .f32) : IVec S_ 1 :=
  let main_v0 : FVec F S2x8x64x2048 .f32 := Host.absf main_arg0
  let main_cst : FVec F S_ .f32 := constant S_ .f32 0x7F800000#32
  let main_v1 : FVec F S2x8x64x2048 .f32 := broadcastInDim S2x8x64x2048 ![] bcast_S_S2x8x64x2048 main_cst
  let main_v2 : IVec S2x8x64x2048 1 := cmpf .olt main_v0 main_v1
  let main_c : IVec S_ 1 := constantI S_ 1 1#1
  let main_v3 : IVec S_ 1 := (fun x v => Host.reduce IntOp.andi x v reducesTo_S2x8x64x2048_S_d0_1_2_3 h_S_) main_v2 main_c
  let main_v4 : FVec F S4x64x256x256 .f32 := Host.absf main_arg2
  let main_cst_0 : FVec F S_ .f32 := constant S_ .f32 0x7F800000#32
  let main_v5 : FVec F S4x64x256x256 .f32 := broadcastInDim S4x64x256x256 ![] bcast_S_S4x64x256x256 main_cst_0
  let main_v6 : IVec S4x64x256x256 1 := cmpf .olt main_v4 main_v5
  let main_c_1 : IVec S_ 1 := constantI S_ 1 1#1
  let main_v7 : IVec S_ 1 := (fun x v => Host.reduce IntOp.andi x v reducesTo_S4x64x256x256_S_d0_1_2_3 h_S_) main_v6 main_c_1
  let main_v8 : IVec S_ 1 := andi main_v3 main_v7
  let main_c_2 : IVec S_ 32 := constantI S_ 32 0#32
  let main_v9 : IVec S2 32 := broadcastInDim S2 ![] bcast_S_S2 main_c_2
  let main_v10 : IVec S2 1 := cmpi .sge main_arg1 main_v9
  let main_c_3 : IVec S_ 32 := constantI S_ 32 4#32
  let main_v11 : IVec S2 32 := broadcastInDim S2 ![] bcast_S_S2 main_c_3
  let main_v12 : IVec S2 1 := cmpi .slt main_arg1 main_v11
  let main_v13 : IVec S2 1 := andi main_v10 main_v12
  let main_c_4 : IVec S_ 1 := constantI S_ 1 1#1
  let main_v14 : IVec S_ 1 := (fun x v => Host.reduce IntOp.andi x v reducesTo_S2_S_d0 h_S_) main_v13 main_c_4
  let main_v15 : IVec S_ 1 := andi main_v8 main_v14
  main_v15
-- ==== Kernel.lean ====
abbrev S2x8x64x2048 : Shape := ⟨4, ![2, 8, 64, 2048]⟩
abbrev S2 : Shape := ⟨1, ![2]⟩
abbrev S4x64x256x256 : Shape := ⟨4, ![4, 64, 256, 256]⟩
abbrev S2x64x8x2048 : Shape := ⟨4, ![2, 64, 8, 2048]⟩
abbrev S2x64x128x128 : Shape := ⟨4, ![2, 64, 128, 128]⟩
abbrev S4x64x65536 : Shape := ⟨3, ![4, 64, 65536]⟩
abbrev S_ : Shape := ⟨0, ![]⟩
abbrev S2x8x65536 : Shape := ⟨3, ![2, 8, 65536]⟩
abbrev S1x64x128x128 : Shape := ⟨4, ![1, 64, 128, 128]⟩
abbrev S1x64x512 : Shape := ⟨3, ![1, 64, 512]⟩
abbrev S1 : Shape := ⟨1, ![1]⟩
abbrev S1x8x512 : Shape := ⟨3, ![1, 8, 512]⟩
abbrev S8x512 : Shape := ⟨2, ![8, 512]⟩
abbrev S128x512 : Shape := ⟨2, ![128, 512]⟩
abbrev S16x512 : Shape := ⟨2, ![16, 512]⟩
abbrev S1x1x512 : Shape := ⟨3, ![1, 1, 512]⟩
abbrev S512 : Shape := ⟨1, ![512]⟩
abbrev S1x512 : Shape := ⟨2, ![1, 512]⟩
abbrev S1x1x128x128 : Shape := ⟨4, ![1, 1, 128, 128]⟩
abbrev S128x128 : Shape := ⟨2, ![128, 128]⟩
abbrev S8x16x512 : Shape := ⟨3, ![8, 16, 512]⟩
abbrev S1x16x512 : Shape := ⟨3, ![1, 16, 512]⟩
abbrev S2x65536x8 : Shape := ⟨3, ![2, 65536, 8]⟩
abbrev S2x256x256x8 : Shape := ⟨4, ![2, 256, 256, 8]⟩

abbrev nBuf : Space → Nat
  | .hbm => 17
  | .vmem => 6
  | .smem => 1
  | _ => 0

abbrev bufTy : (tb : Table) → Fin (tcTables nBuf tb) → BufTy
  | .hbm, ⟨0, _⟩ => ⟨S2x8x64x2048, .f32⟩
  | .hbm, ⟨1, _⟩ => ⟨S2, .i32⟩
  | .hbm, ⟨2, _⟩ => ⟨S4x64x256x256, .f32⟩
  | .hbm, ⟨3, _⟩ => ⟨S2x64x8x2048, .f32⟩
  | .hbm, ⟨4, _⟩ => ⟨S2x64x128x128, .f32⟩
  | .hbm, ⟨5, _⟩ => ⟨S2x64x128x128, .bf16⟩
  | .hbm, ⟨6, _⟩ => ⟨S4x64x65536, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2, .i32⟩
  | .hbm, ⟨11, _⟩ => ⟨S2, .i32⟩
  | .hbm, ⟨12, _⟩ => ⟨S_, .i32⟩
  | .hbm, ⟨13, _⟩ => ⟨S2, .i32⟩
  | .hbm, ⟨14, _⟩ => ⟨S2x8x65536, .f32⟩
  | .hbm, ⟨15, _⟩ => ⟨S2x65536x8, .f32⟩
  | .hbm, ⟨16, _⟩ => ⟨S2x256x256x8, .f32⟩
  | .local _ .vmem, ⟨0, _⟩ => ⟨S1x64x128x128, .bf16⟩
  | .local _ .vmem, ⟨1, _⟩ => ⟨S1x64x128x128, .bf16⟩
  | .local _ .vmem, ⟨2, _⟩ => ⟨S1x64x512, .f32⟩
  | .local _ .vmem, ⟨3, _⟩ => ⟨S1x64x512, .f32⟩
  | .local _ .vmem, ⟨4, _⟩ => ⟨S1x8x512, .f32⟩
  | .local _ .vmem, ⟨5, _⟩ => ⟨S1x8x512, .f32⟩
  | .local _ .smem, ⟨0, _⟩ => ⟨S2, .i32⟩
  | _, _ => ⟨S2x8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c64_i32 : BitVec 32 := 64#32
  let v6 : BitVec 32 := Scalar.addi c0_i32 c64_i32
  let c1_i32 : BitVec 32 := 1#32
  ⟨c0_i32, v6, c1_i32⟩
def k0_off2 (k0_t1 : Fin k0_t1_loop.trips) : Fin 3 → Nat :=
  let c0_5 : Index := 0#32
  let c0_i32_4 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v7 : BitVec 32 := Scalar.muli arg6 c1_i32_3
  let v8 : BitVec 32 := Scalar.addi c0_i32_4 v7
  let v9 : Index := Scalar.indexCast v8
  let c0_6 : Index := 0#32
  ![0, v9.toNat, 0]
def k0_off3 (k0_t1 : Fin k0_t1_loop.trips) : Fin 4 → Nat :=
  let c0_26 : Index := 0#32
  let c0_i32_4 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v7 : BitVec 32 := Scalar.muli arg6 c1_i32_3
  let v8 : BitVec 32 := Scalar.addi c0_i32_4 v7
  let v79 : Index := Scalar.indexCast v8
  let c0_27 : Index := 0#32
  let c0_28 : Index := 0#32
  ![0, v79.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x8x64x2048_S2x64x8x2048_0_2_1_3 : S2x8x64x2048.Transposes [0, 2, 1, 3] S2x64x8x2048
  shapeCasts_S2x64x8x2048_S2x64x128x128 : S2x64x8x2048.ShapeCasts S2x64x128x128
  bitsLt_bf16_f32 : FTy.bits .bf16 < FTy.bits .f32
  shapeCasts_S4x64x256x256_S4x64x65536 : S4x64x256x256.ShapeCasts S4x64x65536
  bcast_S_S2 : S_.BroadcastsInDim S2 (![] : Fin 0 → Fin S2.rank)
  numel1_S1 : S1.numel = 1
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  iota_S128x512_d0_w32 : S128x512.Iotas .tc 32 [0]
  iota_S16x512_d0_w32 : S16x512.Iotas .tc 32 [0]
  h_S1x1x512 : 0 < S1x1x512.numel
  shapeCasts_S1x1x512_S512 : S1x1x512.ShapeCasts S512
  shapeCasts_S512_S1x512 : S512.ShapeCasts S1x512
  broadcasts_S1x512_S128x512 : S1x512.Broadcasts S128x512
  broadcasts_S1x512_S16x512 : S1x512.Broadcasts S16x512
  shapeCasts_S1x512_S1x512 : S1x512.ShapeCasts S1x512
  h_S1x1x128x128 : 0 < S1x1x128x128.numel
  shapeCasts_S1x1x128x128_S128x128 : S1x1x128x128.ShapeCasts S128x128
  shapeCasts_S128x512_S8x16x512 : S128x512.ShapeCasts S8x16x512
  shapeCasts_S16x512_S1x16x512 : S16x512.ShapeCasts S1x16x512
  broadcasts_S1x16x512_S8x16x512 : S1x16x512.Broadcasts S8x16x512
  reduces_S8x16x512_S8x512 : S8x16x512.Reduces [1] S8x512
  transposes_S2x8x65536_S2x65536x8_0_2_1 : S2x8x65536.Transposes [0, 2, 1] S2x65536x8
  shapeCasts_S2x65536x8_S2x256x256x8 : S2x65536x8.ShapeCasts S2x256x256x8
  dot_S128x128_S128x512_S128x512_1_0_0_1_n_n_wf : DotDims.WF S128x128 S128x512 S128x512 [1] [0] [0] [1] [] []
  hrank0 : 0 < grid0.rank
  k0_off1_inb : ∀ i : grid0.Coords, ∀ a, (k0_off1 i) a + S1.size a ≤ S2.size a
  k0_t1_ok : k0_t1_loop.OK
  k0_off2_inb : ∀ k0_t1 : Fin k0_t1_loop.trips, ∀ a, (k0_off2 k0_t1) a + S1x1x512.size a ≤ S1x64x512.size a
  k0_off3_inb : ∀ k0_t1 : Fin k0_t1_loop.trips, ∀ a, (k0_off3 k0_t1) a + S1x1x128x128.size a ≤ S1x64x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S2x64x128x128.size a
  hwx0_0 : ∀ i : grid0.Coords, EltTy.bits .bf16 = 32 ∨ (Rect.block (s := S2x64x128x128) S1x64x128x128.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x65536.size a
  hwx0_2 : ∀ i : grid0.Coords, EltTy.bits .f32 = 32 ∨ (Rect.block (s := S2x8x65536) S1x8x512.size (cc0_transform_2 i) (hinb0_2 i)).WholeWords (EltTy.packing .f32)

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev spec0_0 : Pipeline.WinSpec sig grid0.rank :=
  Pipeline.WinSpec.ofSpec (Memref.whole main_v2) S1x64x128x128.size reads0_0 false false 2 stage0_0 sem0_0 nbuf0_0 hstage0_0

abbrev spec0_1 : Pipeline.WinSpec sig grid0.rank :=
  Pipeline.WinSpec.ofSpec (Memref.whole main_v3) S1x64x512.size reads0_1 false false 2 stage0_1 sem0_1 nbuf0_1 hstage0_1

abbrev spec0_2 : Pipeline.WinSpec sig grid0.rank :=
  Pipeline.WinSpec.ofSpec (Memref.whole main_v5) S1x8x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x64x512.size a ≤ S4x64x65536.size a), EltTy.bits .f32 = 32 ∨ (Rect.block (s := S4x64x65536) S1x64x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S2x8x64x2048 : Shape := ⟨4, ![2, 8, 64, 2048]⟩
abbrev S2 : Shape := ⟨1, ![2]⟩
abbrev S4x64x256x256 : Shape := ⟨4, ![4, 64, 256, 256]⟩
abbrev S_ : Shape := ⟨0, ![]⟩
abbrev S2x1 : Shape := ⟨2, ![2, 1]⟩
abbrev S2x64x256x256 : Shape := ⟨4, ![2, 64, 256, 256]⟩
abbrev S2x1x64x65536 : Shape := ⟨4, ![2, 1, 64, 65536]⟩
abbrev S2x8x64x65536 : Shape := ⟨4, ![2, 8, 64, 65536]⟩
abbrev S2x8x64x65536x1 : Shape := ⟨5, ![2, 8, 64, 65536, 1]⟩
abbrev S1 : Shape := ⟨1, ![1]⟩
abbrev S1x1x1x1x1 : Shape := ⟨5, ![1, 1, 1, 1, 1]⟩
abbrev S2x8x64x256x256 : Shape := ⟨5, ![2, 8, 64, 256, 256]⟩
abbrev S2x1x64x256x256 : Shape := ⟨5, ![2, 1, 64, 256, 256]⟩
abbrev S2x8x256x256 : Shape := ⟨4, ![2, 8, 256, 256]⟩
abbrev S2x256x256x8 : Shape := ⟨4, ![2, 256, 256, 8]⟩

abbrev nBuf : Space → Nat
  | .hbm => 115
  | .vmem => 0
  | .smem => 0
  | _ => 0

abbrev bufTy : (tb : Table) → Fin (tcTables nBuf tb) → BufTy
  | .hbm, ⟨0, _⟩ => ⟨S2x8x64x2048, .f32⟩
  | .hbm, ⟨1, _⟩ => ⟨S2, .i32⟩
  | .hbm, ⟨2, _⟩ => ⟨S4x64x256x256, .f32⟩
  | .hbm, ⟨3, _⟩ => ⟨S_, .i32⟩
  | .hbm, ⟨4, _⟩ => ⟨S2, .i32⟩
  | .hbm, ⟨5, _⟩ => ⟨S2, .i1⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S2, .i32⟩
  | .hbm, ⟨10, _⟩ => ⟨S2x1, .i32⟩
  | .hbm, ⟨11, _⟩ => ⟨S2x64x256x256, .f32⟩
  | .hbm, ⟨12, _⟩ => ⟨S2x64x256x256, .f32⟩
  | .hbm, ⟨13, _⟩ => ⟨S2x64x256x256, .f32⟩
  | .hbm, ⟨14, _⟩ => ⟨S2x64x256x256, .i32⟩
  | .hbm, ⟨15, _⟩ => ⟨S_, .f32⟩
  | .hbm, ⟨16, _⟩ => ⟨S2x64x256x256, .f32⟩
  | .hbm, ⟨17, _⟩ => ⟨S2x64x256x256, .f32⟩
  | .hbm, ⟨18, _⟩ => ⟨S_, .i32⟩
  | .hbm, ⟨19, _⟩ => ⟨S2x64x256x256, .i32⟩
  | .hbm, ⟨20, _⟩ => ⟨S2x64x256x256, .i1⟩
  | .hbm, ⟨21, _⟩ => ⟨S_, .i32⟩
  | .hbm, ⟨22, _⟩ => ⟨S2x64x256x256, .i32⟩
  | .hbm, ⟨23, _⟩ => ⟨S2x64x256x256, .i1⟩
  | .hbm, ⟨24, _⟩ => ⟨S2x64x256x256, .i1⟩
  | .hbm, ⟨25, _⟩ => ⟨S2x64x256x256, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2x64x256x256, .i32⟩
  | .hbm, ⟨30, _⟩ => ⟨S2x64x256x256, .i32⟩
  | .hbm, ⟨31, _⟩ => ⟨S_, .i32⟩
  | .hbm, ⟨32, _⟩ => ⟨S2x64x256x256, .i32⟩
  | .hbm, ⟨33, _⟩ => ⟨S2x64x256x256, .i32⟩
  | .hbm, ⟨34, _⟩ => ⟨S2x1x64x65536, .i32⟩
  | .hbm, ⟨35, _⟩ => ⟨S2x8x64x65536, .i32⟩
  | .hbm, ⟨36, _⟩ => ⟨S_, .i32⟩
  | .hbm, ⟨37, _⟩ => ⟨S2x8x64x65536, .i32⟩
  | .hbm, ⟨38, _⟩ => ⟨S2x8x64x65536, .i1⟩
  | .hbm, ⟨39, _⟩ => ⟨S_, .i32⟩
  | .hbm, ⟨40, _⟩ => ⟨S2x8x64x65536, .i32⟩
  | .hbm, ⟨41, _⟩ => ⟨S2x8x64x65536, .i32⟩
  | .hbm, ⟨42, _⟩ => ⟨S2x8x64x65536, .i32⟩
  | .hbm, ⟨43, _⟩ => ⟨S2x8x64x65536x1, .i32⟩
  | .hbm, ⟨44, _⟩ => ⟨S1, .i32⟩
  | .hbm, ⟨45, _⟩ => ⟨S_, .i32⟩
  | .hbm, ⟨46, _⟩ => ⟨S2x8x64x65536x1, .i32⟩
  | .hbm, ⟨47, _⟩ => ⟨S2x8x64x65536x1, .i1⟩
  | .hbm, ⟨48, _⟩ => ⟨S1x1x1x1x1, .i32⟩
  | .hbm, ⟨49, _⟩ => ⟨S2x8x64x65536x1, .i32⟩
  | .hbm, ⟨50, _⟩ => ⟨S2x8x64x65536x1, .i1⟩
  | .hbm, ⟨51, _⟩ => ⟨S2x8x64x65536x1, .i1⟩
  | .hbm, ⟨52, _⟩ => ⟨S_, .i1⟩
  | .hbm, ⟨53, _⟩ => ⟨S2x8x64x65536, .i1⟩
  | .hbm, ⟨54, _⟩ => ⟨S2x8x64x65536, .f32⟩
  | .hbm, ⟨55, _⟩ => ⟨S_, .f32⟩
  | .hbm, ⟨56, _⟩ => ⟨S2x8x64x65536, .f32⟩
  | .hbm, ⟨57, _⟩ => ⟨S2x8x64x65536, .f32⟩
  | .hbm, ⟨58, _⟩ => ⟨S2x8x64x256x256, .f32⟩
  | .hbm, ⟨59, _⟩ => ⟨S2x64x256x256, .f32⟩
  | .hbm, ⟨60, _⟩ => ⟨S2x1x64x256x256, .f32⟩
  | .hbm, ⟨61, _⟩ => ⟨S2x8x64x256x256, .f32⟩
  | .hbm, ⟨62, _⟩ => ⟨S2x8x64x256x256, .f32⟩
  | .hbm, ⟨63, _⟩ => ⟨S_, .i32⟩
  | .hbm, ⟨64, _⟩ => ⟨S2x64x256x256, .i32⟩
  | .hbm, ⟨65, _⟩ => ⟨S2x64x256x256, .i32⟩
  | .hbm, ⟨66, _⟩ => ⟨S_, .i32⟩
  | .hbm, ⟨67, _⟩ => ⟨S2x64x256x256, .i32⟩
  | .hbm, ⟨68, _⟩ => ⟨S2x64x256x256, .i1⟩
  | .hbm, ⟨69, _⟩ => ⟨S_, .i32⟩
  | .hbm, ⟨70, _⟩ => ⟨S2x64x256x256, .i32⟩
  | .hbm, ⟨71, _⟩ => ⟨S2x64x256x256, .i1⟩
  | .hbm, ⟨72, _⟩ => ⟨S2x64x256x256, .i1⟩
  | .hbm, ⟨73, _⟩ => ⟨S2x64x256x256, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S2x64x256x256, .i32⟩
  | .hbm, ⟨78, _⟩ => ⟨S2x64x256x256, .i32⟩
  | .hbm, ⟨79, _⟩ => ⟨S_, .i32⟩
  | .hbm, ⟨80, _⟩ => ⟨S2x64x256x256, .i32⟩
  | .hbm, ⟨81, _⟩ => ⟨S2x64x256x256, .i32⟩
  | .hbm, ⟨82, _⟩ => ⟨S2x1x64x65536, .i32⟩
  | .hbm, ⟨83, _⟩ => ⟨S2x8x64x65536, .i32⟩
  | .hbm, ⟨84, _⟩ => ⟨S_, .i32⟩
  | .hbm, ⟨85, _⟩ => ⟨S2x8x64x65536, .i32⟩
  | .hbm, ⟨86, _⟩ => ⟨S2x8x64x65536, .i1⟩
  | .hbm, ⟨87, _⟩ => ⟨S_, .i32⟩
  | .hbm, ⟨88, _⟩ => ⟨S2x8x64x65536, .i32⟩
  | .hbm, ⟨89, _⟩ => ⟨S2x8x64x65536, .i32⟩
  | .hbm, ⟨90, _⟩ => ⟨S2x8x64x65536, .i32⟩
  | .hbm, ⟨91, _⟩ => ⟨S2x8x64x65536x1, .i32⟩
  | .hbm, ⟨92, _⟩ => ⟨S1, .i32⟩
  | .hbm, ⟨93, _⟩ => ⟨S_, .i32⟩
  | .hbm, ⟨94, _⟩ => ⟨S2x8x64x65536x1, .i32⟩
  | .hbm, ⟨95, _⟩ => ⟨S2x8x64x65536x1, .i1⟩
  | .hbm, ⟨96, _⟩ => ⟨S1x1x1x1x1, .i32⟩
  | .hbm, ⟨97, _⟩ => ⟨S2x8x64x65536x1, .i32⟩
  | .hbm, ⟨98, _⟩ => ⟨S2x8x64x65536x1, .i1⟩
  | .hbm, ⟨99, _⟩ => ⟨S2x8x64x65536x1, .i1⟩
  | .hbm, ⟨100, _⟩ => ⟨S_, .i1⟩
  | .hbm, ⟨101, _⟩ => ⟨S2x8x64x65536, .i1⟩
  | .hbm, ⟨102, _⟩ => ⟨S2x8x64x65536, .f32⟩
  | .hbm, ⟨103, _⟩ => ⟨S_, .f32⟩
  | .hbm, ⟨104, _⟩ => ⟨S2x8x64x65536, .f32⟩
  | .hbm, ⟨105, _⟩ => ⟨S2x8x64x65536, .f32⟩
  | .hbm, ⟨106, _⟩ => ⟨S2x8x64x256x256, .f32⟩
  | .hbm, ⟨107, _⟩ => ⟨S2x64x256x256, .f32⟩
  | .hbm, ⟨108, _⟩ => ⟨S2x1x64x256x256, .f32⟩
  | .hbm, ⟨109, _⟩ => ⟨S2x8x64x256x256, .f32⟩
  | .hbm, ⟨110, _⟩ => ⟨S2x8x64x256x256, .f32⟩
  | .hbm, ⟨111, _⟩ => ⟨S2x8x64x256x256, .f32⟩
  | .hbm, ⟨112, _⟩ => ⟨S_, .f32⟩
  | .hbm, ⟨113, _⟩ => ⟨S2x8x256x256, .f32⟩
  | .hbm, ⟨114, _⟩ => ⟨S2x256x256x8, .f32⟩
  | _, _ => ⟨S2x8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_c_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_5 : Ref sig .tc := ⟨.hbm, 63, rfl⟩
abbrev main_v27 : Ref sig .tc := ⟨.hbm, 64, rfl⟩
abbrev main_v28 : Ref sig .tc := ⟨.hbm, 65, rfl⟩
abbrev main_c_6 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_8 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_cst : Ref sig .tc := ⟨.hbm, 103, rfl⟩
abbrev main_call3_v14 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_cst_10 : Ref sig .tc := ⟨.hbm, 112, rfl⟩
abbrev main_v45 : Ref sig .tc := ⟨.hbm, 113, rfl⟩
abbrev main_v46 : Ref sig .tc := ⟨.hbm, 114, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S2x64x256x256 : S_.BroadcastsInDim S2x64x256x256 (![] : Fin 0 → Fin S2x64x256x256.rank)
  shapeCasts_S2x64x256x256_S2x1x64x65536 : S2x64x256x256.ShapeCasts S2x1x64x65536
  bcast_S2x1x64x65536_S2x8x64x65536_0_1_2_3 : S2x1x64x65536.BroadcastsInDim S2x8x64x65536 (![0, 1, 2, 3] : Fin 4 → Fin S2x8x64x65536.rank)
  bcast_S_S2x8x64x65536 : S_.BroadcastsInDim S2x8x64x65536 (![] : Fin 0 → Fin S2x8x64x65536.rank)
  shapeCasts_S2x8x64x65536_S2x8x64x65536x1 : S2x8x64x65536.ShapeCasts S2x8x64x65536x1
  bcast_S_S2x8x64x65536x1 : S_.BroadcastsInDim S2x8x64x65536x1 (![] : Fin 0 → Fin S2x8x64x65536x1.rank)
  bcast_S1_S1x1x1x1x1_4 : S1.BroadcastsInDim S1x1x1x1x1 (![4] : Fin 1 → Fin S1x1x1x1x1.rank)
  bcast_S1x1x1x1x1_S2x8x64x65536x1_0_1_2_3_4 : S1x1x1x1x1.BroadcastsInDim S2x8x64x65536x1 (![0, 1, 2, 3, 4] : Fin 5 → Fin S2x8x64x65536x1.rank)
  reducesTo_S2x8x64x65536x1_S2x8x64x65536_d4 : S2x8x64x65536x1.ReducesTo [4] S2x8x64x65536
  h_S_ : 0 < S_.numel
  shapeCasts_S2x8x64x65536_S2x8x64x256x256 : S2x8x64x65536.ShapeCasts S2x8x64x256x256
  bcast_S2x64x256x256_S2x1x64x256x256_0_2_3_4 : S2x64x256x256.BroadcastsInDim S2x1x64x256x256 (![0, 2, 3, 4] : Fin 4 → Fin S2x1x64x256x256.rank)
  bcast_S2x1x64x256x256_S2x8x64x256x256_0_1_2_3_4 : S2x1x64x256x256.BroadcastsInDim S2x8x64x256x256 (![0, 1, 2, 3, 4] : Fin 5 → Fin S2x8x64x256x256.rank)
  reducesTo_S2x8x64x256x256_S2x8x256x256_d2 : S2x8x64x256x256.ReducesTo [2] S2x8x256x256
  transposes_S2x8x256x256_S2x256x256x8_0_2_3_1 : S2x8x256x256.Transposes [0, 2, 3, 1] S2x256x256x8
  gather_S4x64x256x256_S2x1_S2x64x256x256_123_0_n_n_0_1_164256256_wf : GatherDims.WF S4x64x256x256 S2x1 S2x64x256x256 [1, 2, 3] [0] [] [0] [] 1 ![1, 64, 256, 256]
  gather_S2x8x64x2048_S2x8x64x65536x1_S2x8x64x65536_n_3_012_012_3_4_1111_wf : GatherDims.WF S2x8x64x2048 S2x8x64x65536x1 S2x8x64x65536 [] [3] [0, 1, 2] [3] [0, 1, 2] 4 ![1, 1, 1, 1]

variable [Facts₀]

def gather_S4x64x256x256_S2x1_S2x64x256x256_123_0_n_n_0_1_164256256 : GatherDims S4x64x256x256 S2x1 S2x64x256x256 where
  offsetDims := [1, 2, 3]
  collapsedSliceDims := [0]
  operandBatchingDims := []
  startIndicesBatchingDims := []
  startIndexMap := [0]
  indexVectorDim := 1
  sliceSizes := ![1, 64, 256, 256]
  wf := gather_S4x64x256x256_S2x1_S2x64x256x256_123_0_n_n_0_1_164256256_wf
def gather_S2x8x64x2048_S2x8x64x65536x1_S2x8x64x65536_n_3_012_012_3_4_1111 : GatherDims S2x8x64x2048 S2x8x64x65536x1 S2x8x64x65536 where
  offsetDims := []
  collapsedSliceDims := [3]
  operandBatchingDims := [0, 1, 2]
  startIndicesBatchingDims := [0, 1, 2]
  startIndexMap := [3]
  indexVectorDim := 4
  sliceSizes := ![1, 1, 1, 1]
  wf := gather_S2x8x64x2048_S2x8x64x65536x1_S2x8x64x65536_n_3_012_012_3_4_1111_wf

class Facts : Prop extends Facts₀ where

variable [Facts]
-- ==== Proof.HostPreK.lean ====
/-
  What the region finds of its table when it is entered, for the program over machine words: the table of delay-table
  numbers (the batch's number clamped into 0 … 3) read at an index, and the side condition of that table (every block it
  selects lies inside the flattened delay tables). The operations that make the table are integer operations: nothing
  here depends on the arithmetic of the floating-point formats.
-/
import proofs.«423647_j15058155340289_3_alg».proof.Proof.Gen.Kernel.Frame
import Idealize.ShloMosaic.Lib.ValueIdx
import Idealize.ShloMosaic.Lib.Pipeline.Value
import Idealize.ShloMosaic.Lib.StableHlo.Run

set_option maxRecDepth 16384

noncomputable section

open scoped BigOperators

namespace Cert.Kernel.HostPre

open Idealize.ShloMosaic Idealize.ShloMosaic.TcCoe Idealize.ShloMosaic.ValueIdx
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- A batch's delay-table number as the launch holds it. -/
abbrev idsAt (b : Fin 2) : BitVec 32 := m (((0 : Dev nD).tc : Thread nD τ).loc main_arg1) (ix1 b)

/-- The table as a whole: the launch's numbers, first raised to at least `0`, then lowered to at most `3` (both
    bounds a scalar constant spread over the two batches). -/
private theorem tbl_eq :
    (tbl m 0 : S2.Idx → BitVec 32)
      = minsi (broadcastInDim S2 ![] bcast_S_S2 (constantI S_ 32 3#32))
          (maxsi (broadcastInDim S2 ![] bcast_S_S2 (constantI S_ 32 0#32)) (m (((0 : Dev nD).tc : Thread nD τ).loc main_arg1))) := by
  unfold tbl
  show V m 0 main_v4 = _
  dsimp only [V, V0]
  simp only [hostOps0, hostOps0_1, List.flatten_cons, List.flatten_nil, List.append_nil, List.cons_append, List.nil_append]
  after_results
  rfl

/-- The table the region reads holds, per batch, the batch's number clamped into `0 … 3` (signed). -/
theorem tbl_apply (b : Fin 2) : tbl m 0 (ix1 b) = IntOp.minsi 3#32 (IntOp.maxsi 0#32 (idsAt m b)) :=
  (congrFun (tbl_eq m) (ix1 b)).trans rfl

/-- A word clamped into `0 … 3` (signed) is below `4` (unsigned): below `0` it becomes `0`, above `3` it becomes
    `3`, and in between it is a non-negative signed word, whose unsigned value is its signed one. -/
private theorem clamp_lt (w : BitVec 32) : (IntOp.minsi 3#32 (IntOp.maxsi 0#32 w)).toNat < 4 := by
  unfold IntOp.minsi IntOp.maxsi
  by_cases h1 : (w.slt 0#32) = true
  · rw [if_pos h1]; rw [if_neg (by decide)]; decide
  · rw [if_neg h1]
    by_cases h2 : ((3#32).slt w) = true
    · rw [if_pos h2]; decide
    · rw [if_neg h2]
      simp only [BitVec.slt, decide_eq_true_eq, not_lt] at h1 h2
      have e := BitVec.toInt_eq_toNat_cond w
      have hlt := w.isLt
      have h0 : (0#32 : BitVec 32).toInt = 0 := by decide
      have h3 : (3#32 : BitVec 32).toInt = 3 := by decide
      rw [h0] at h1; rw [h3] at h2
      split at e <;> omega

/-- A clamped number is a delay-table number. -/
theorem tbl_lt (b : Fin 2) : (tbl m 0 (ix1 b)).toNat < 4 := by
  rw [tbl_apply]; exact clamp_lt _

/-- Whatever the table holds, the delay tables' block index at a grid point is: a word of the table, `0`, and the
    point's second coordinate as a word. -/
private theorem transform_1_form (pf : pre0.Contents (Elt F)) (i : grid0.Coords) :
    ∃ x : S2.Idx, cc0_transform_1 Facts₀.k0_off1_inb Facts₀.numel1_S1 pf i
      = ![(pf 0 x).toNat, (0#32 : BitVec 32).toNat, (BitVec.ofNat 32 (i 1).val).toNat] := ⟨_, rfl⟩

/-- A table all of whose words are below `4` selects only blocks inside the flattened delay tables: block
    `(w, 0, z)` of extents `1 × 64 × 512` has `(w + 1) · 1 ≤ 4`, `1 · 64 ≤ 64` and, `z` being below `128`,
    `(z + 1) · 512 ≤ 65536`; the elements are one word wide. -/
private theorem ok_of_lt (pf : pre0.Contents (Elt F)) (hlt : ∀ x : S2.Idx, (pf 0 x).toNat < 4) : ok0 (F := F) pf := by
  intro i
  obtain ⟨x, e⟩ := transform_1_form pf i
  refine ⟨fun a => ?_, Or.inl rfl⟩
  rw [e]
  have hx := hlt x
  have hi : (i 1).val < 128 := (i 1).isLt
  have hz : (BitVec.ofNat 32 (i 1).val).toNat = (i 1).val := by
    rw [BitVec.toNat_ofNat]; exact Nat.mod_eq_of_lt (by omega)
  match a with
  | ⟨0, _⟩ => show ((pf 0 x).toNat + 1) * 1 ≤ 4; omega
  | ⟨1, _⟩ => show ((0#32 : BitVec 32).toNat + 1) * 64 ≤ 64; decide
  | ⟨2, _⟩ => show ((BitVec.ofNat 32 (i 1).val).toNat + 1) * 512 ≤ 65536; rw [hz]; omega

/-- So every block the table selects lies inside the flattened delay tables: the region's side condition holds of
    every launch memory. -/
theorem ok : Ok m :=
  ok_of_lt (tbl m) fun x => by rw [eq_ix1 x]; exact tbl_lt m _

end Cert.Kernel.HostPre

end
-- ==== Proof.BodyVal.lean ====
/-
  What one grid point's body leaves in the output block.

  The body first stores zeros into the block, then runs over the 64 channels: at channel `n` it loads the
  channel's row of 512 sample positions and the channel's 128 × 128 slab of signal values, computes from
  them the channel's 8 × 512 contribution, and stores the block read back plus that contribution. So the
  block after the body is the 64-fold iterate `acc (n + 1) = chan (positions n) (slab n) (acc n)` from
  `acc 0 = 0`: the pieces the body's run lists are whole-block stores, the last of which wins, and each
  trip's store reads the block the earlier stores left.
-/
import proofs.«423647_j15058155340289_3_alg».proof.Proof.Gen.KernelIdeal.Frame
import Idealize.ShloMosaic.Lib.Pipeline.Value

set_option maxRecDepth 16384

noncomputable section

namespace Cert.KernelIdeal.BodyVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The row-number grid over 128 rows and the one over 16 rows, which the body builds once. -/
abbrev laneIota : IVec S128x512 32 := iota .tc S128x512 32 [0] iota_S128x512_d0_w32
abbrev subIota : IVec S16x512 32 := iota .tc S16x512 32 [0] iota_S16x512_d0_w32

/-- One channel's update of the block: the block `a` plus the channel's contribution, computed from the
    channel's row of positions `v10` and its slab `v80`. -/
def chan (v10 : Vec F S1x1x512 .f32) (v80 : Vec F S1x1x128x128 .bf16) (a : Vec F S1x8x512 .f32) : Vec F S1x8x512 .f32 :=
  k0_pay2 (k0_pay16 laneIota subIota (k0_pay7 v10) (k0_pay9 v10) (k0_pay10 v10) v80)
    (k0_pay17 laneIota subIota (k0_pay12 v10) (k0_pay13 v10) (k0_pay14 v10) v80) a

/-- Channel `k`'s row of positions, cut from the positions block. -/
def posRow (x1 : Vec F S1x64x512 .f32) (k : Fin k0_t1_loop.trips) : Vec F S1x1x512 .f32 :=
  View.ld x1 (Rect.unit (k0_off2 k) S1x1x512.size (k0_off2_inb k))
/-- Channel `k`'s slab, cut from the signal block. -/
def slab (x0 : Vec F S1x64x128x128 .bf16) (k : Fin k0_t1_loop.trips) : Vec F S1x1x128x128 .bf16 :=
  View.ld x0 (Rect.unit (k0_off3 k) S1x1x128x128.size (k0_off3_inb k))

/-- The block after the zero store and the first `n` channels. -/
def accAt (x0 : Vec F S1x64x128x128 .bf16) (x1 : Vec F S1x64x512 .f32) : ℕ → Vec F S1x8x512 .f32
  | 0 => k0_pay1
  | n + 1 => if h : n < k0_t1_loop.trips then chan (posRow x1 ⟨n, h⟩) (slab x0 ⟨n, h⟩) (accAt x0 x1 n) else accAt x0 x1 n

theorem accAt_succ (x0 : Vec F S1x64x128x128 .bf16) (x1 : Vec F S1x64x512 .f32) (k : Fin k0_t1_loop.trips) :
    accAt x0 x1 (k.val + 1) = chan (posRow x1 k) (slab x0 k) (accAt x0 x1 k.val) := by
  rw [accAt]; exact dif_pos k.isLt

theorem hz3 : (![0, 0, 0] : Fin 3 → Nat) = fun _ => 0 := by
  funext a; match a with | ⟨0, _⟩ => rfl | ⟨1, _⟩ => rfl | ⟨2, _⟩ => rfl

/-- One trip's one piece: a store of the whole block, of the channel's update of the block the trip finds. -/
theorem tripL_eq (𝒱 : Variants) (c : Dev nD) (bd : Option 𝒱.V) (i : grid0.Coords) (arg2 : Memref sig .tc .smem S2 .i32) (harg2 : arg2.IsWhole) (arg3 : Memref sig .tc .vmem S1x64x128x128 .bf16) (harg3 : arg3.IsWhole) (arg4 : Memref sig .tc .vmem S1x64x512 .f32) (harg4 : arg4.IsWhole) (arg5 : Memref sig .tc .vmem S1x8x512 .f32) (harg5 : arg5.IsWhole)
    (x0 : Vec F S1x64x128x128 .bf16) (x1 : Vec F S1x64x512 .f32) (k : Fin k0_t1_loop.trips) (f_arg5 : BufTy.Contents (Elt F) arg5.view.ty) :
    tripL_k0_t1 (F := F) 𝒱 c bd i arg2 harg2 arg3 harg3 arg4 harg4 arg5 harg5 laneIota subIota (harg3.unread x0) (harg4.unread x1) k f_arg5
      = [⟨Rect.unit ![0, 0, 0] S1x8x512.size inb_S1x8x512_S1x8x512_0_0_0,
          chan (posRow x1 k) (slab x0 k) (View.ld (arg5.view.read (Elt F) f_arg5) (Rect.unit ![0, 0, 0] S1x8x512.size inb_S1x8x512_S1x8x512_0_0_0))⟩] := by
  unfold tripL_k0_t1 trip_k0_t1
  dsimp only
  sl_unfold_words
  unfold chan posRow slab
  simp only [View.readAt_eq_ld, harg3.read_unread, harg4.read_unread]
  rfl

/-- The zero store: the body's first piece. -/
abbrev initP : View.Piece (Elt F) S1x8x512 .f32 :=
  ⟨Rect.unit ![0, 0, 0] S1x8x512.size inb_S1x8x512_S1x8x512_0_0_0, k0_pay1⟩

section
variable (c : Dev nD) (i : grid0.Coords) (arg3 : Memref sig .tc .vmem S1x64x128x128 .bf16) (harg3 : arg3.IsWhole) (arg4 : Memref sig .tc .vmem S1x64x512 .f32) (harg4 : arg4.IsWhole) (arg5 : Memref sig .tc .vmem S1x8x512 .f32) (harg5 : arg5.IsWhole)
  (x0 : Vec F S1x64x128x128 .bf16) (x1 : Vec F S1x64x512 .f32)

/-- The pieces of the first `n` trips (last first), as the body's run lists them. -/
abbrev tripsBefore (n : ℕ) : List (View.Piece (Elt F) S1x8x512 .f32) :=
  pb_k0_t1 (F := F) Variants.none c none i tbM0_0 htbM0_0 arg3 harg3 arg4 harg4 arg5 harg5 laneIota subIota (harg3.unread x0) (harg4.unread x1)
    (arg5.view.writes (Elt F) arg5.view.junk [initP]) n

/-- The body's run lists the 64 trips' pieces in front of the zero store. -/
theorem run_pieces (xt0 : TbBuf0 (F := F) c tbM0_0) :
    (kernelRun0_A c i arg3 harg3 arg4 harg4 arg5 harg5 x0 x1 xt0).1
      = tripsBefore c i arg3 harg3 arg4 harg4 arg5 harg5 x0 x1 k0_t1_loop.trips ++ [initP] := by
  unfold kernelRun0_A
  dsimp only
  sl_unfold_words
  rfl

/-- After the zero store and `n` trips the stores leave the `n`-fold iterate, whatever was there before. -/
theorem canon_tripsBefore (n : ℕ) (hn : n ≤ k0_t1_loop.trips) :
    View.canon (tripsBefore c i arg3 harg3 arg4 harg4 arg5 harg5 x0 x1 n ++ [initP]) = accAt x0 x1 n := by
  induction n with
  | zero =>
    show View.canon ([] ++ [initP]) = _
    exact View.canon_unit_zero hz3 _ _
  | succ n ih =>
    have hlt : n < k0_t1_loop.trips := hn
    have hs := pb_k0_t1_succ (F := F) Variants.none c none i tbM0_0 htbM0_0 arg3 harg3 arg4 harg4 arg5 harg5 laneIota subIota
      (harg3.unread x0) (harg4.unread x1) (arg5.view.writes (Elt F) arg5.view.junk [initP]) ⟨n, hlt⟩
    have ha := accAt_succ x0 x1 ⟨n, hlt⟩
    dsimp only at hs ha
    unfold tripsBefore
    rw [hs, tripL_eq, ha]
    rw [List.singleton_append, List.cons_append, View.canon_cons_unit_zero hz3]
    refine congrArg (chan (posRow x1 ⟨n, hlt⟩) (slab x0 ⟨n, hlt⟩)) ?_
    rw [← View.writes_append, View.read_writes_junk_eq_canon, View.ld_unit_zero hz3]
    exact ih (Nat.le_of_lt hlt)

/-- THE BODY'S VALUE: the output block after the body is the 64-fold iterate over the channels. -/
theorem out_eq (xt0 : TbBuf0 (F := F) c tbM0_0) :
    out0_A_2 c i arg3 harg3 arg4 harg4 arg5 harg5 x0 x1 xt0 = accAt x0 x1 k0_t1_loop.trips := by
  unfold out0_A_2
  rw [View.read_writes_junk_eq_canon, run_pieces]
  exact canon_tripsBefore c i arg3 harg3 arg4 harg4 arg5 harg5 x0 x1 _ (Nat.le_refl _)

end

end Cert.KernelIdeal.BodyVal

end
-- ==== Proof.Spec.lean ====
/-
  One-dimensional linear interpolation with zero padding, as a function on the extended reals.

  A sample position `x` is split into its floor and its fractional part `x - ⌊x⌋`. The two taps sit at
  the integer positions `⌊x⌋` and `⌊x⌋ + 1` (as 32-bit words); a tap whose position lies in `[0, 2047]`
  carries the weight `1 - frac` (left) or `frac` (right), a tap outside carries weight `0`, and either
  tap reads the row at its position clamped into `[0, 2047]`. The interpolated value is the sum of the
  two products; the output element `(b, z, x, k)` is the sum over the 64 channels of the interpolated
  values of row `(b, k, channel)` at the position the delay table `t b` holds for `(channel, z, x)`.
-/
import Idealize.ShloMosaic.PureOps.Ideal
import Idealize.ShloMosaic.Lib.ValueIdx

noncomputable section

open scoped BigOperators

namespace Cert.Interp

open Idealize.ShloMosaic Idealize.ShloMosaic.ValueIdx

/-- `⌊x⌋` on the extended reals (the infinities fixed). -/
def fl (x : EReal) : EReal := Ideal.liftRound Int.floor x
/-- The fractional part `x - ⌊x⌋`: the right tap's weight. -/
def frac (x : EReal) : EReal := x - fl x
/-- The left tap's position, as a word. -/
def pos0 (x : EReal) : BitVec 32 := Ideal.fptosi 32 (fl x)
/-- The right tap's position: one more (in 32-bit arithmetic). -/
def pos1 (x : EReal) : BitVec 32 := IntOp.addi (pos0 x) 1#32
/-- The bit "the position is a row index": `0 ≤ w ≤ 2047`, signed. -/
def inRange (w : BitVec 32) : BitVec 1 := IntOp.andi (IntOp.cmpi .sge w 0#32) (IntOp.cmpi .sle w 2047#32)
/-- The position clamped into `[0, 2047]`, signed. -/
def clampW (w : BitVec 32) : BitVec 32 := IntOp.minsi 2047#32 (IntOp.maxsi 0#32 w)
/-- The number one, as the single-precision word both programs spell it with. -/
def one : EReal := Ideal.ofBits .f32 0x3F800000#32
/-- The left tap's weight: `1 - frac` inside the row, `0` outside. -/
def wt0 (x : EReal) : EReal := Scalar.select (inRange (pos0 x)) (one - frac x) 0
/-- The right tap's weight: `frac` inside the row, `0` outside. -/
def wt1 (x : EReal) : EReal := Scalar.select (inRange (pos1 x)) (frac x) 0

/-- A clamped position is a row index. -/
theorem clampW_lt (w : BitVec 32) : (clampW w).toNat < 2048 := by
  unfold clampW IntOp.minsi IntOp.maxsi
  by_cases h1 : (w.slt 0#32) = true
  · rw [if_pos h1]; rw [if_neg (by decide)]; decide
  · rw [if_neg h1]
    by_cases h2 : ((2047#32).slt w) = true
    · rw [if_pos h2]; decide
    · rw [if_neg h2]
      simp only [BitVec.slt, decide_eq_true_eq, not_lt] at h1 h2
      have e := BitVec.toInt_eq_toNat_cond w
      have hlt := w.isLt
      have h0 : (0#32 : BitVec 32).toInt = 0 := by decide
      have h47 : (2047#32 : BitVec 32).toInt = 2047 := by decide
      rw [h0] at h1; rw [h47] at h2
      split at e <;> omega

/-- The clamped position as a row index. -/
def clampIx (w : BitVec 32) : Fin 2048 := ⟨(clampW w).toNat, clampW_lt w⟩

/-- The interpolated value of a row at position `x`: the two taps' products added. -/
def tap (row : Fin 2048 → EReal) (x : EReal) : EReal :=
  row (clampIx (pos0 x)) * wt0 x + row (clampIx (pos1 x)) * wt1 x

/-- The whole result: element `(b, z, x, k)` is the sum over the 64 channels of the interpolated values of
    the signal rows `(b, k, channel)` at the positions delay table `t b` holds at `(channel, z, x)`. -/
def G (t : Fin 2 → Fin 4) (rfs : (⟨4, ![2, 8, 64, 2048]⟩ : Shape).Idx → EReal)
    (sidx : (⟨4, ![4, 64, 256, 256]⟩ : Shape).Idx → EReal) : (⟨4, ![2, 256, 256, 8]⟩ : Shape).Idx → EReal :=
  fun j => ∑ nc : Fin 64, tap (fun s => rfs (ix4 (j 0) (j 3) nc s)) (sidx (ix4 (t (j 0)) nc (j 1) (j 2)))

end Cert.Interp

end
-- ==== Proof.WordFacts.lean ====
/-
  Facts about 32-bit words and float words that the one-hot selection uses: the word of the number one; a position below 2048 split into its row (the arithmetic shift right by 7) and its column (the bits below 128); equality of a row number with a word.
-/
import Idealize.ShloMosaic.PureOps.Ideal
import Idealize.ShloMosaic.Lib.ValueIdx

set_option maxRecDepth 16384

noncomputable section

open scoped BigOperators

namespace Cert.WordFacts

open Idealize.ShloMosaic

/-- The single-precision word `0x3F800000` is the number one. -/
theorem one_f32 : Ideal.ofBits .f32 0x3F800000#32 = (1 : EReal) := by
  simp [Ideal.ofBits, Ideal.ieee, -EReal.coe_mul]; norm_num

/-- A position below 2048: its arithmetic shift right by 7 is its quotient by 128, its low seven bits the remainder. -/
theorem split_pos (w : BitVec 32) (h : w.toNat < 2048) :
    (IntOp.shrsi .vector w 7#32).toNat = w.toNat / 128 ∧ (IntOp.andi w 127#32).toNat = w.toNat % 128 := by
  -- the sign bit of a word below 2048 is clear, so the arithmetic shift is the logical one
  have hm : w.msb = false := BitVec.msb_eq_false_iff_two_mul_lt.mpr (by omega)
  have h7 : (7#32 : BitVec 32).toNat = 7 := by decide
  refine ⟨?_, ?_⟩
  · have hlt : (7#32 : BitVec 32).toNat < 32 := by decide
    simp only [IntOp.shrsi, if_pos hlt]
    rw [BitVec.toNat_sshiftRight'_of_msb_false hm, h7, Nat.shiftRight_eq_div_pow]
  · -- 127 = 2^7 - 1, and the conjunction with it keeps the remainder modulo 2^7
    have h127 : (127#32 : BitVec 32).toNat = 2 ^ 7 - 1 := by decide
    simp only [IntOp.andi]
    rw [BitVec.toNat_and, h127, Nat.and_two_pow_sub_one_eq_mod]

/-- A small number's word equals a word exactly when the number is the word's value. -/
theorem cmpi_eq_ofNat (n : Nat) (hn : n < 2 ^ 32) (w : BitVec 32) :
    IntOp.cmpi .eq (BitVec.ofNat 32 n) w = 1#1 ↔ n = w.toNat := by
  have hb : ∀ b : Bool, BitVec.ofBool b = 1#1 ↔ b = true := by intro b; cases b <;> decide
  simp only [IntOp.cmpi, hb, beq_iff_eq]
  constructor
  · intro e
    have := congrArg BitVec.toNat e
    rw [BitVec.toNat_ofNat, Nat.mod_eq_of_lt hn] at this
    exact this
  · intro e
    apply BitVec.eq_of_toNat_eq
    rw [BitVec.toNat_ofNat, Nat.mod_eq_of_lt hn]
    exact e

end Cert.WordFacts

end
-- ==== Proof.PayIdx.lean ====
/-
  One channel's update of the output block, read at one element (on the extended reals).
-/
import proofs.«423647_j15058155340289_3_alg».proof.Proof.BodyVal
import proofs.«423647_j15058155340289_3_alg».proof.Proof.Spec
import proofs.«423647_j15058155340289_3_alg».proof.Proof.WordFacts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayIdx

open Idealize.ShloMosaic Idealize.ShloMosaic.ValueIdx Cert.KernelIdeal Cert.KernelIdeal.Gen

/-- Signal row `kk` (of the 8) of a channel's 128 × 128 slab: sample `s = 128·hi + lo` of the row sits at slab
    row `16·kk + hi`, column `lo`. -/
def slabRow (v80 : Vec Ideal S1x1x128x128 .bf16) (kk : Fin 8) : Fin 2048 → EReal :=
  fun s => v80 (ix4 (0 : Fin 1) (0 : Fin 1)
    (⟨kk.val * 16 + s.val / 128, by have := kk.isLt; have := s.isLt; omega⟩ : Fin 128)
    (⟨s.val % 128, Nat.mod_lt _ (by decide)⟩ : Fin 128))

/-- On the extended reals a sum of products with a weight vector that vanishes off one place is that place's product. -/
private theorem sum_pick {n : Nat} (f c : Fin n → EReal) (l₀ : Fin n) (h0 : ∀ l, l ≠ l₀ → c l = 0) :
    ∑ l, f l * c l = f l₀ * c l₀ := by
  rw [Finset.sum_eq_single l₀]
  · intro l _ hl; rw [h0 l hl, mul_zero]
  · intro h; exact absurd (Finset.mem_univ _) h

private theorem pay15_apply (v80 : Vec Ideal S1x1x128x128 .bf16) (r l : Fin 128) :
    k0_pay15 (F := Ideal) v80 (ix2 r l) = v80 (ix4 (0 : Fin 1) (0 : Fin 1) r l) := by
  unfold k0_pay15
  exact shapeCast_apply v80 _ _ _ (by
    rw [Shape.rowMajor_val_four, Shape.rowMajor_val_two]
    show (((0 * 1 + 0) * 128 + r.val) * 128 + l.val) = r.val * 128 + l.val
    omega)

private theorem laneIota_apply (l : Fin 128) (p : Fin 512) : BodyVal.laneIota (ix2 l p) = BitVec.ofNat 32 l.val :=
  iota_single_apply .tc S128x512 32 0 iota_S128x512_d0_w32 (ix2 l p)

private theorem subIota_apply (h : Fin 16) (p : Fin 512) : BodyVal.subIota (ix2 h p) = BitVec.ofNat 32 h.val :=
  iota_single_apply .tc S16x512 32 0 iota_S16x512_d0_w32 (ix2 h p)

/-! The product's index maps, axis by axis: the left operand reads (row of the result, contracted place), the right
    operand (contracted place, column of the result). -/

private theorem dot_lhs_0 (j : S128x512.Idx) (k : dot_S128x128_S128x512_S128x512_1_0_0_1_n_n.contr.Idx) :
    (dot_S128x128_S128x512_S128x512_1_0_0_1_n_n.lhsIdx j k 0 : ℕ) = j 0 := by
  simp [DotDims.lhsIdx, dot_S128x128_S128x512_S128x512_1_0_0_1_n_n]; rfl
private theorem dot_lhs_1 (j : S128x512.Idx) (k : dot_S128x128_S128x512_S128x512_1_0_0_1_n_n.contr.Idx) :
    (dot_S128x128_S128x512_S128x512_1_0_0_1_n_n.lhsIdx j k 1 : ℕ) = k ⟨0, by decide⟩ := by
  simp [DotDims.lhsIdx, dot_S128x128_S128x512_S128x512_1_0_0_1_n_n]; rfl
private theorem dot_rhs_0 (j : S128x512.Idx) (k : dot_S128x128_S128x512_S128x512_1_0_0_1_n_n.contr.Idx) :
    (dot_S128x128_S128x512_S128x512_1_0_0_1_n_n.rhsIdx j k 0 : ℕ) = k ⟨0, by decide⟩ := by
  simp [DotDims.rhsIdx, dot_S128x128_S128x512_S128x512_1_0_0_1_n_n]; rfl
private theorem dot_rhs_1 (j : S128x512.Idx) (k : dot_S128x128_S128x512_S128x512_1_0_0_1_n_n.contr.Idx) :
    (dot_S128x128_S128x512_S128x512_1_0_0_1_n_n.rhsIdx j k 1 : ℕ) = j 1 := by
  simp [DotDims.rhsIdx, dot_S128x128_S128x512_S128x512_1_0_0_1_n_n]; rfl

/-- A product of a 128 × 128 matrix by a 128 × 512 matrix into the zero matrix, read at (r, p): the sum over the
    contracted place l of the entries' products. -/
private theorem matmul_apply_rp (A : FVec Ideal S128x128 .bf16) (B : FVec Ideal S128x512 .bf16) (r : Fin 128) (p : Fin 512) :
    matmul dot_S128x128_S128x512_S128x512_1_0_0_1_n_n none A B (constant (F := Ideal) S128x512 .f32 0x00000000#32) (ix2 r p)
      = ∑ l : Fin 128, A (ix2 r l) * B (ix2 l p) := by
  show FloatOps.matmul _ none A B _ (ix2 r p) = _
  rw [Ideal.matmul_constant_zero_apply,
    ← Equiv.sum_comp (contrEquiv1 dot_S128x128_S128x512_S128x512_1_0_0_1_n_n 128 rfl rfl).symm]
  refine Finset.sum_congr rfl fun l _ => ?_
  have c := contrEquiv1_symm_val dot_S128x128_S128x512_S128x512_1_0_0_1_n_n 128 rfl rfl l
  have hl : dot_S128x128_S128x512_S128x512_1_0_0_1_n_n.lhsIdx (ix2 r p)
      ((contrEquiv1 dot_S128x128_S128x512_S128x512_1_0_0_1_n_n 128 rfl rfl).symm l) = ix2 r l :=
    Shape.idx_ext₂ (dot_lhs_0 _ _) ((dot_lhs_1 _ _).trans c)
  have hr : dot_S128x128_S128x512_S128x512_1_0_0_1_n_n.rhsIdx (ix2 r p)
      ((contrEquiv1 dot_S128x128_S128x512_S128x512_1_0_0_1_n_n 128 rfl rfl).symm l) = ix2 l p :=
    Shape.idx_ext₂ ((dot_rhs_0 _ _).trans c) (dot_rhs_1 _ _)
  rw [hl, hr]

/-! The scalar chain at position p: each word or number the channel's position row yields, as the specification
    spells it. -/

private theorem pay3_apply (v10 : Vec Ideal S1x1x512 .f32) (p : Fin 512) :
    k0_pay3 (F := Ideal) v10 (ix1 p) = v10 (ix3 (0 : Fin 1) (0 : Fin 1) p) := by
  unfold k0_pay3
  exact shapeCast_apply v10 _ _ _ (by
    rw [Shape.rowMajor_val_three, Shape.rowMajor_val_one]
    show ((0 * 1 + 0) * 512 + p.val) = p.val
    omega)

private theorem pay4_apply (v10 : Vec Ideal S1x1x512 .f32) (p : Fin 512) :
    k0_pay4 (F := Ideal) v10 (ix1 p) = Interp.fl (v10 (ix3 (0 : Fin 1) (0 : Fin 1) p)) := by
  show Ideal.liftRound Int.floor (k0_pay3 (F := Ideal) v10 (ix1 p)) = _
  rw [pay3_apply]; rfl

private theorem pay5_apply (v10 : Vec Ideal S1x1x512 .f32) (p : Fin 512) :
    k0_pay5 (F := Ideal) v10 (ix1 p) = Interp.frac (v10 (ix3 (0 : Fin 1) (0 : Fin 1) p)) := by
  show k0_pay3 (F := Ideal) v10 (ix1 p) - k0_pay4 (F := Ideal) v10 (ix1 p) = _
  rw [pay3_apply, pay4_apply]; rfl

private theorem pay6_apply (v10 : Vec Ideal S1x1x512 .f32) (p : Fin 512) :
    k0_pay6 (F := Ideal) v10 (ix1 p) = Interp.pos0 (v10 (ix3 (0 : Fin 1) (0 : Fin 1) p)) := by
  show Ideal.fptosi 32 (k0_pay4 (F := Ideal) v10 (ix1 p)) = _
  rw [pay4_apply]; rfl

private theorem pay7_apply (v10 : Vec Ideal S1x1x512 .f32) (p : Fin 512) :
    k0_pay7 (F := Ideal) v10 (ix1 p) = Interp.wt0 (v10 (ix3 (0 : Fin 1) (0 : Fin 1) p)) := by
  show Scalar.select (IntOp.andi (IntOp.cmpi .sge (k0_pay6 (F := Ideal) v10 (ix1 p)) 0#32)
      (IntOp.cmpi .sle (k0_pay6 (F := Ideal) v10 (ix1 p)) 2047#32))
    (Ideal.ofBits .f32 0x3F800000#32 - k0_pay5 (F := Ideal) v10 (ix1 p)) (Ideal.ofBits .f32 0x00000000#32) = _
  rw [pay6_apply, pay5_apply, Ideal.ofBits_zero_f32]; rfl

private theorem pay8_apply (v10 : Vec Ideal S1x1x512 .f32) (p : Fin 512) :
    k0_pay8 (F := Ideal) v10 (ix1 p) = Interp.clampW (Interp.pos0 (v10 (ix3 (0 : Fin 1) (0 : Fin 1) p))) := by
  show IntOp.minsi 2047#32 (IntOp.maxsi 0#32 (k0_pay6 (F := Ideal) v10 (ix1 p))) = _
  rw [pay6_apply]; rfl

private theorem pay9_apply (v10 : Vec Ideal S1x1x512 .f32) (p : Fin 512) :
    k0_pay9 (F := Ideal) v10 (ix1 p)
      = IntOp.shrsi .vector (Interp.clampW (Interp.pos0 (v10 (ix3 (0 : Fin 1) (0 : Fin 1) p)))) 7#32 := by
  show IntOp.shrsi .vector (k0_pay8 (F := Ideal) v10 (ix1 p)) 7#32 = _
  rw [pay8_apply]

private theorem pay10_apply (v10 : Vec Ideal S1x1x512 .f32) (p : Fin 512) :
    k0_pay10 (F := Ideal) v10 (ix1 p)
      = IntOp.andi (Interp.clampW (Interp.pos0 (v10 (ix3 (0 : Fin 1) (0 : Fin 1) p)))) 127#32 := by
  show IntOp.andi (k0_pay8 (F := Ideal) v10 (ix1 p)) 127#32 = _
  rw [pay8_apply]

private theorem pay11_apply (v10 : Vec Ideal S1x1x512 .f32) (p : Fin 512) :
    k0_pay11 (F := Ideal) v10 (ix1 p) = Interp.pos1 (v10 (ix3 (0 : Fin 1) (0 : Fin 1) p)) := by
  show IntOp.addi (k0_pay6 (F := Ideal) v10 (ix1 p)) 1#32 = _
  rw [pay6_apply]; rfl

private theorem pay12_apply (v10 : Vec Ideal S1x1x512 .f32) (p : Fin 512) :
    k0_pay12 (F := Ideal) v10 (ix1 p) = Interp.wt1 (v10 (ix3 (0 : Fin 1) (0 : Fin 1) p)) := by
  show Scalar.select (IntOp.andi (IntOp.cmpi .sge (k0_pay11 (F := Ideal) v10 (ix1 p)) 0#32)
      (IntOp.cmpi .sle (k0_pay11 (F := Ideal) v10 (ix1 p)) 2047#32))
    (k0_pay5 (F := Ideal) v10 (ix1 p)) (Ideal.ofBits .f32 0x00000000#32) = _
  rw [pay11_apply, pay5_apply, Ideal.ofBits_zero_f32]; rfl

private theorem pay13_apply (v10 : Vec Ideal S1x1x512 .f32) (p : Fin 512) :
    k0_pay13 (F := Ideal) v10 (ix1 p) = Interp.clampW (Interp.pos1 (v10 (ix3 (0 : Fin 1) (0 : Fin 1) p))) := by
  show IntOp.minsi 2047#32 (IntOp.maxsi 0#32 (k0_pay11 (F := Ideal) v10 (ix1 p))) = _
  rw [pay11_apply]; rfl

private theorem pay14_apply (v10 : Vec Ideal S1x1x512 .f32) (p : Fin 512) :
    k0_pay14 (F := Ideal) v10 (ix1 p)
      = IntOp.shrsi .vector (Interp.clampW (Interp.pos1 (v10 (ix3 (0 : Fin 1) (0 : Fin 1) p)))) 7#32 := by
  show IntOp.shrsi .vector (k0_pay13 (F := Ideal) v10 (ix1 p)) 7#32 = _
  rw [pay13_apply]

/-! The vector side: the one-hot column matrix, the masked weight rows, and the products the reduction sums. -/

/-- The one-hot matrix of the column words: entry (l, p) is one where the row number l is the word lo p, else zero. -/
private def hot (lo : IVec S512 32) : FVec Ideal S128x512 .bf16 :=
  truncf .bf16 (select (cmpi .eq BodyVal.laneIota
      (broadcastTo S128x512 (shapeCast S1x512 lo shapeCasts_S512_S1x512) broadcasts_S1x512_S128x512))
    (broadcast S128x512 (Scalar.ofBits (F := Ideal) .f32 0x3F800000#32))
    (broadcast S128x512 (Scalar.ofBits (F := Ideal) .f32 0x00000000#32))) bitsLt_bf16_f32

/-- The masked weights: entry (h, p) is the weight w p where the row number h is the word hi p, else zero. -/
private def mask (hi : IVec S512 32) (w : FVec Ideal S512 .f32) : FVec Ideal S16x512 .f32 :=
  select (cmpi .eq BodyVal.subIota
      (broadcastTo S16x512 (shapeCast S1x512 hi shapeCasts_S512_S1x512) broadcasts_S1x512_S16x512))
    (broadcastTo S16x512 (shapeCast S1x512 (shapeCast S1x512 w shapeCasts_S512_S1x512) shapeCasts_S1x512_S1x512)
      broadcasts_S1x512_S16x512)
    (broadcast S16x512 (Scalar.ofBits (F := Ideal) .f32 0x00000000#32))

/-- The products summed over the 16 sub-rows: the slab times the one-hot matrix, viewed 8 × 16 × 512, times the masked
    weights repeated over the 8 rows. -/
private def prod (lo hi : IVec S512 32) (w : FVec Ideal S512 .f32) (v80 : Vec Ideal S1x1x128x128 .bf16) : FVec Ideal S8x16x512 .f32 :=
  mulf (shapeCast S8x16x512 (matmul dot_S128x128_S128x512_S128x512_1_0_0_1_n_n none (k0_pay15 (F := Ideal) v80) (hot lo)
      (constant (F := Ideal) S128x512 .f32 0x00000000#32)) shapeCasts_S128x512_S8x16x512)
    (broadcastTo S8x16x512 (shapeCast S1x16x512 (mask hi w) shapeCasts_S16x512_S1x16x512) broadcasts_S1x16x512_S8x16x512)

private theorem pay16_eq (w : FVec Ideal S512 .f32) (hi lo : IVec S512 32) (v80 : Vec Ideal S1x1x128x128 .bf16) :
    k0_pay16 (F := Ideal) BodyVal.laneIota BodyVal.subIota w hi lo v80
      = multiReduction (F := Ideal) .add [1] S8x512 (prod lo hi w v80) 0x00000000#32 reduces_S8x16x512_S8x512 (.inl rfl) rfl := rfl

private theorem pay17_eq (w : FVec Ideal S512 .f32) (c hi : IVec S512 32) (v80 : Vec Ideal S1x1x128x128 .bf16) :
    k0_pay17 (F := Ideal) BodyVal.laneIota BodyVal.subIota w c hi v80
      = prod (andi c (broadcast S512 127#32)) hi w v80 := rfl

private theorem hot_apply (lo : IVec S512 32) (l : Fin 128) (p : Fin 512) :
    hot lo (ix2 l p)
      = Scalar.select (IntOp.cmpi .eq (BitVec.ofNat 32 l.val) (lo (ix1 p))) (Ideal.ofBits .f32 0x3F800000#32) (0 : EReal) := by
  show Scalar.select (IntOp.cmpi .eq (BodyVal.laneIota (ix2 l p))
      (broadcastTo S128x512 (shapeCast S1x512 lo shapeCasts_S512_S1x512) broadcasts_S1x512_S128x512 (ix2 l p)))
    (Ideal.ofBits .f32 0x3F800000#32) (Ideal.ofBits .f32 0x00000000#32) = _
  rw [laneIota_apply, broadcastTo_1b_ab_apply, shapeCast_a_1a_apply, Ideal.ofBits_zero_f32]

private theorem mask_apply (hi : IVec S512 32) (w : FVec Ideal S512 .f32) (h : Fin 16) (p : Fin 512) :
    mask hi w (ix2 h p) = Scalar.select (IntOp.cmpi .eq (BitVec.ofNat 32 h.val) (hi (ix1 p))) (w (ix1 p)) (0 : EReal) := by
  show Scalar.select (IntOp.cmpi .eq (BodyVal.subIota (ix2 h p))
      (broadcastTo S16x512 (shapeCast S1x512 hi shapeCasts_S512_S1x512) broadcasts_S1x512_S16x512 (ix2 h p)))
    (broadcastTo S16x512 (shapeCast S1x512 (shapeCast S1x512 w shapeCasts_S512_S1x512) shapeCasts_S1x512_S1x512)
      broadcasts_S1x512_S16x512 (ix2 h p))
    (Ideal.ofBits .f32 0x00000000#32) = _
  rw [subIota_apply, broadcastTo_1b_ab_apply, broadcastTo_1b_ab_apply, shapeCast_self, shapeCast_a_1a_apply,
    shapeCast_a_1a_apply, Ideal.ofBits_zero_f32]

private theorem row_lt (kk : Fin 8) (h : Fin 16) : kk.val * 16 + h.val < 128 := by
  have := kk.isLt; have := h.isLt; omega

private theorem prod_apply (lo hi : IVec S512 32) (w : FVec Ideal S512 .f32) (v80 : Vec Ideal S1x1x128x128 .bf16)
    (kk : Fin 8) (h : Fin 16) (p : Fin 512) :
    prod lo hi w v80 (ix3 kk h p)
      = (∑ l : Fin 128, v80 (ix4 (0 : Fin 1) (0 : Fin 1) (⟨kk.val * 16 + h.val, row_lt kk h⟩ : Fin 128) l) * hot lo (ix2 l p))
          * mask hi w (ix2 h p) := by
  show shapeCast S8x16x512 (matmul dot_S128x128_S128x512_S128x512_1_0_0_1_n_n none (k0_pay15 (F := Ideal) v80) (hot lo)
        (constant (F := Ideal) S128x512 .f32 0x00000000#32)) shapeCasts_S128x512_S8x16x512 (ix3 kk h p)
      * broadcastTo S8x16x512 (shapeCast S1x16x512 (mask hi w) shapeCasts_S16x512_S1x16x512) broadcasts_S1x16x512_S8x16x512 (ix3 kk h p) = _
  have e1 := shapeCast_apply (matmul dot_S128x128_S128x512_S128x512_1_0_0_1_n_n none (k0_pay15 (F := Ideal) v80) (hot lo)
        (constant (F := Ideal) S128x512 .f32 0x00000000#32)) shapeCasts_S128x512_S8x16x512 (ix3 kk h p)
      (ix2 (⟨kk.val * 16 + h.val, row_lt kk h⟩ : Fin 128) p) (by
        rw [Shape.rowMajor_val_two, Shape.rowMajor_val_three]
        show (kk.val * 16 + h.val) * 512 + p.val = (kk.val * 16 + h.val) * 512 + p.val
        rfl)
  have e2 := broadcastTo_apply (shapeCast S1x16x512 (mask hi w) shapeCasts_S16x512_S1x16x512) broadcasts_S1x16x512_S8x16x512
      (ix3 kk h p) (ix3 (0 : Fin 1) h p) (fun a => match a with
        | ⟨0, _⟩ => rfl
        | ⟨1, _⟩ => rfl
        | ⟨2, _⟩ => rfl)
  rw [e1, e2, shapeCast_ab_1ab_apply, matmul_apply_rp]
  refine congrArg (· * mask hi w (ix2 h p)) (Finset.sum_congr rfl fun l _ => ?_)
  rw [pay15_apply]

/-- A sum over the middle axis of an 8 × 16 × 512 array into the zero word, read at (kk, p). -/
private theorem red_apply (X : FVec Ideal S8x16x512 .f32) (kk : Fin 8) (p : Fin 512) :
    multiReduction (F := Ideal) .add [1] S8x512 X 0x00000000#32 reduces_S8x16x512_S8x512 (.inl rfl) rfl (ix2 kk p)
      = ∑ h : Fin 16, X (ix3 kk h p) := by
  refine (Ideal.multiReduction_add_single X 0x00000000#32 reduces_S8x16x512_S8x512 (.inl rfl) rfl (ix2 kk p)).trans ?_
  refine Finset.sum_congr rfl fun h _ => congrArg X ?_
  funext a
  match a with
  | ⟨0, _⟩ => rfl
  | ⟨1, _⟩ => rfl
  | ⟨2, _⟩ => rfl

/-- Against the one-hot matrix a sum over the 128 columns picks the column whose number is the word lo p. -/
private theorem hot_pick (lo : IVec S512 32) (p : Fin 512) (hlo : (lo (ix1 p)).toNat < 128) (f : Fin 128 → EReal) :
    ∑ l : Fin 128, f l * hot lo (ix2 l p) = f ⟨(lo (ix1 p)).toNat, hlo⟩ := by
  have h0 : ∀ l : Fin 128, l ≠ ⟨(lo (ix1 p)).toNat, hlo⟩ → hot lo (ix2 l p) = 0 := by
    intro l hl
    have hne : ¬ IntOp.cmpi .eq (BitVec.ofNat 32 l.val) (lo (ix1 p)) = 1#1 := fun hc =>
      hl (Fin.ext ((WordFacts.cmpi_eq_ofNat l.val (by have := l.isLt; omega) _).mp hc))
    rw [hot_apply, eq_zero_of_ne_one hne, select_zero]
  have h1 : hot lo (ix2 (⟨(lo (ix1 p)).toNat, hlo⟩ : Fin 128) p) = 1 := by
    rw [hot_apply, (WordFacts.cmpi_eq_ofNat (lo (ix1 p)).toNat (by omega) (lo (ix1 p))).mpr rfl, select_one,
      WordFacts.one_f32]
  refine (sum_pick f (fun l => hot lo (ix2 l p)) ⟨(lo (ix1 p)).toNat, hlo⟩ h0).trans ?_
  show f _ * hot lo (ix2 (⟨(lo (ix1 p)).toNat, hlo⟩ : Fin 128) p) = _
  rw [h1, mul_one]

/-- Against the masked weights a sum over the 16 sub-rows picks the sub-row whose number is the word hi p, with its
    weight. -/
private theorem mask_pick (hi : IVec S512 32) (w : FVec Ideal S512 .f32) (p : Fin 512) (hhi : (hi (ix1 p)).toNat < 16)
    (f : Fin 16 → EReal) :
    ∑ h : Fin 16, f h * mask hi w (ix2 h p) = f ⟨(hi (ix1 p)).toNat, hhi⟩ * w (ix1 p) := by
  have h0 : ∀ h : Fin 16, h ≠ ⟨(hi (ix1 p)).toNat, hhi⟩ → mask hi w (ix2 h p) = 0 := by
    intro h hh
    have hne : ¬ IntOp.cmpi .eq (BitVec.ofNat 32 h.val) (hi (ix1 p)) = 1#1 := fun hc =>
      hh (Fin.ext ((WordFacts.cmpi_eq_ofNat h.val (by have := h.isLt; omega) _).mp hc))
    rw [mask_apply, eq_zero_of_ne_one hne, select_zero]
  have h1 : mask hi w (ix2 (⟨(hi (ix1 p)).toNat, hhi⟩ : Fin 16) p) = w (ix1 p) := by
    rw [mask_apply, (WordFacts.cmpi_eq_ofNat (hi (ix1 p)).toNat (by omega) (hi (ix1 p))).mpr rfl, select_one]
  refine (sum_pick f (fun h => mask hi w (ix2 h p)) ⟨(hi (ix1 p)).toNat, hhi⟩ h0).trans ?_
  show f _ * mask hi w (ix2 (⟨(hi (ix1 p)).toNat, hhi⟩ : Fin 16) p) = _
  rw [h1]

/-- One tap: with the column word the low seven bits and the sub-row word the shift by seven of a position c below
    2048, the 16 products at (kk, p) add up to the signal row's sample at c times the weight. -/
private theorem tap_apply (lo hi : IVec S512 32) (w : FVec Ideal S512 .f32) (v80 : Vec Ideal S1x1x128x128 .bf16)
    (kk : Fin 8) (p : Fin 512) (c : BitVec 32) (hc : c.toNat < 2048)
    (hlo : lo (ix1 p) = IntOp.andi c 127#32) (hhi : hi (ix1 p) = IntOp.shrsi .vector c 7#32) :
    ∑ h : Fin 16, prod lo hi w v80 (ix3 kk h p) = slabRow v80 kk ⟨c.toNat, hc⟩ * w (ix1 p) := by
  obtain ⟨s1, s2⟩ := WordFacts.split_pos c hc
  have hlo' : (lo (ix1 p)).toNat < 128 := by rw [hlo, s2]; exact Nat.mod_lt _ (by decide)
  have hhi' : (hi (ix1 p)).toNat < 16 := by rw [hhi, s1]; omega
  refine (Finset.sum_congr rfl fun h _ => (prod_apply lo hi w v80 kk h p).trans
      (congrArg (· * mask hi w (ix2 h p)) (hot_pick lo p hlo' _))).trans ?_
  refine (mask_pick hi w p hhi' (fun h => v80 (ix4 (0 : Fin 1) (0 : Fin 1)
      (⟨kk.val * 16 + h.val, row_lt kk h⟩ : Fin 128) (⟨(lo (ix1 p)).toNat, hlo'⟩ : Fin 128)))).trans ?_
  refine congrArg (· * w (ix1 p)) ?_
  show v80 _ = v80 _
  refine congrArg v80 ?_
  exact congrArg₂ (ix4 (n2 := 128) (n3 := 128) (0 : Fin 1) (0 : Fin 1))
    (Fin.ext (by show kk.val * 16 + (hi (ix1 p)).toNat = kk.val * 16 + c.toNat / 128; rw [hhi, s1]))
    (Fin.ext (by show (lo (ix1 p)).toNat = c.toNat % 128; rw [hlo, s2]))

/-- The block's update at (0, kk, p): the element, plus the first tap's sum and the second tap's products added up. -/
private theorem pay2_apply (v89 : FVec Ideal S8x512 .f32) (v92 : FVec Ideal S8x16x512 .f32) (a : Vec Ideal S1x8x512 .f32)
    (kk : Fin 8) (p : Fin 512) :
    k0_pay2 (F := Ideal) v89 v92 a (ix3 (0 : Fin 1) kk p)
      = a (ix3 (0 : Fin 1) kk p) + (v89 (ix2 kk p) + ∑ h : Fin 16, v92 (ix3 kk h p)) := by
  show shapeCast S1x8x512 (addf (shapeCast S8x512 a shapeCasts_S1x8x512_S8x512)
      (addf v89 (multiReduction (F := Ideal) .add [1] S8x512 v92 0x00000000#32 reduces_S8x16x512_S8x512 (.inl rfl) rfl)))
    shapeCasts_S8x512_S1x8x512 (ix3 (0 : Fin 1) kk p) = _
  rw [shapeCast_ab_1ab_apply]
  show shapeCast S8x512 a shapeCasts_S1x8x512_S8x512 (ix2 kk p)
      + (v89 (ix2 kk p) + multiReduction (F := Ideal) .add [1] S8x512 v92 0x00000000#32 reduces_S8x16x512_S8x512 (.inl rfl) rfl (ix2 kk p)) = _
  rw [shapeCast_1ab_ab_apply, red_apply]

/-- One channel's update at element `(kk, p)`: the element plus the interpolated value of the channel's signal row
    `kk` at the channel's position `p`. -/
theorem chan_apply (v10 : Vec Ideal S1x1x512 .f32) (v80 : Vec Ideal S1x1x128x128 .bf16) (a : Vec Ideal S1x8x512 .f32)
    (kk : Fin 8) (p : Fin 512) :
    BodyVal.chan (F := Ideal) v10 v80 a (ix3 (0 : Fin 1) kk p)
      = a (ix3 (0 : Fin 1) kk p) + Interp.tap (slabRow v80 kk) (v10 (ix3 (0 : Fin 1) (0 : Fin 1) p)) := by
  unfold BodyVal.chan
  rw [pay2_apply, pay16_eq, red_apply, pay17_eq,
    tap_apply (k0_pay10 (F := Ideal) v10) (k0_pay9 (F := Ideal) v10) (k0_pay7 (F := Ideal) v10) v80 kk p
      (Interp.clampW (Interp.pos0 (v10 (ix3 (0 : Fin 1) (0 : Fin 1) p)))) (Interp.clampW_lt _)
      (pay10_apply v10 p) (pay9_apply v10 p),
    tap_apply (andi (k0_pay13 (F := Ideal) v10) (broadcast S512 127#32)) (k0_pay14 (F := Ideal) v10)
      (k0_pay12 (F := Ideal) v10) v80 kk p
      (Interp.clampW (Interp.pos1 (v10 (ix3 (0 : Fin 1) (0 : Fin 1) p)))) (Interp.clampW_lt _)
      (by show IntOp.andi (k0_pay13 (F := Ideal) v10 (ix1 p)) 127#32 = _; rw [pay13_apply]) (pay14_apply v10 p),
    pay7_apply, pay12_apply]
  rfl

end Cert.KernelIdeal.PayIdx

end
-- ==== Proof.AccSum.lean ====
/-
  The output block after the 64 channels, read at one element: the sum over the channels of the interpolated values.
-/
import proofs.«423647_j15058155340289_3_alg».proof.Proof.PayIdx

set_option maxRecDepth 16384

noncomputable section

open scoped BigOperators

namespace Cert.KernelIdeal.AccSum

open Idealize.ShloMosaic Idealize.ShloMosaic.ValueIdx Cert.KernelIdeal Cert.KernelIdeal.Gen

/-- Signal row `kk` of channel `nc` of a signal block. -/
def blockRow (x0 : Vec Ideal S1x64x128x128 .bf16) (nc : Fin 64) (kk : Fin 8) : Fin 2048 → EReal :=
  fun s => x0 (ix4 (0 : Fin 1) nc
    (⟨kk.val * 16 + s.val / 128, by have := kk.isLt; have := s.isLt; omega⟩ : Fin 128)
    (⟨s.val % 128, Nat.mod_lt _ (by decide)⟩ : Fin 128))

/-- The loop runs over the 64 channels. -/
private theorem trips_eq : k0_t1_loop.trips = 64 := by decide

/-- The zero block at an element. -/
private theorem zero_apply (kk : Fin 8) (p : Fin 512) :
    (k0_pay1 (F := Ideal)) (ix3 (0 : Fin 1) kk p) = 0 := by
  unfold k0_pay1
  exact Ideal.ofBits_zero_f32

/-- Channel `k`'s row of positions at sample `p` is the positions block at `(k, p)`. -/
private theorem posRow_apply (x1 : Vec Ideal S1x64x512 .f32) (k : Fin k0_t1_loop.trips) (k' : Fin 64)
    (hk : k'.val = k.val) (p : Fin 512) :
    BodyVal.posRow (F := Ideal) x1 k (ix3 (0 : Fin 1) (0 : Fin 1) p) = x1 (ix3 (0 : Fin 1) k' p) := by
  unfold BodyVal.posRow
  show x1 _ = x1 _
  refine congrArg x1 ?_
  funext a
  apply Fin.ext
  have ho := k0_off2_eq k
  match a with
  | ⟨0, h⟩ =>
    have e : k0_off2 k ⟨0, h⟩ = 0 := congrFun ho ⟨0, h⟩
    show k0_off2 k ⟨0, h⟩ + 1 * (0 : ℕ) = (0 : ℕ); omega
  | ⟨1, h⟩ =>
    have e : k0_off2 k ⟨1, h⟩ = k.val := congrFun ho ⟨1, h⟩
    show k0_off2 k ⟨1, h⟩ + 1 * (0 : ℕ) = k'.val; omega
  | ⟨2, h⟩ =>
    have e : k0_off2 k ⟨2, h⟩ = 0 := congrFun ho ⟨2, h⟩
    show k0_off2 k ⟨2, h⟩ + 1 * p.val = p.val; omega

/-- Signal row `kk` of channel `k`'s slab is signal row `kk` of channel `k` of the block. -/
private theorem slabRow_slab (x0 : Vec Ideal S1x64x128x128 .bf16) (k : Fin k0_t1_loop.trips) (k' : Fin 64)
    (hk : k'.val = k.val) (kk : Fin 8) :
    PayIdx.slabRow (BodyVal.slab (F := Ideal) x0 k) kk = blockRow x0 k' kk := by
  unfold BodyVal.slab PayIdx.slabRow blockRow
  funext s
  show x0 _ = x0 _
  refine congrArg x0 ?_
  funext a
  apply Fin.ext
  have ho := k0_off3_eq k
  match a with
  | ⟨0, h⟩ =>
    have e : k0_off3 k ⟨0, h⟩ = 0 := congrFun ho ⟨0, h⟩
    show k0_off3 k ⟨0, h⟩ + 1 * (0 : ℕ) = (0 : ℕ); omega
  | ⟨1, h⟩ =>
    have e : k0_off3 k ⟨1, h⟩ = k.val := congrFun ho ⟨1, h⟩
    show k0_off3 k ⟨1, h⟩ + 1 * (0 : ℕ) = k'.val; omega
  | ⟨2, h⟩ =>
    have e : k0_off3 k ⟨2, h⟩ = 0 := congrFun ho ⟨2, h⟩
    show k0_off3 k ⟨2, h⟩ + 1 * (kk.val * 16 + s.val / 128) = kk.val * 16 + s.val / 128; omega
  | ⟨3, h⟩ =>
    have e : k0_off3 k ⟨3, h⟩ = 0 := congrFun ho ⟨3, h⟩
    show k0_off3 k ⟨3, h⟩ + 1 * (s.val % 128) = s.val % 128; omega

/-- One channel's term of the sum, for a channel number below 64. -/
private def term (x0 : Vec Ideal S1x64x128x128 .bf16) (x1 : Vec Ideal S1x64x512 .f32) (kk : Fin 8) (p : Fin 512)
    (i : ℕ) (hi : i < 64) : EReal :=
  Interp.tap (blockRow x0 ⟨i, hi⟩ kk) (x1 (ix3 (0 : Fin 1) (⟨i, hi⟩ : Fin 64) p))

/-- After the first `n` channels the element holds the sum of their interpolated values. -/
private theorem acc_sum (x0 : Vec Ideal S1x64x128x128 .bf16) (x1 : Vec Ideal S1x64x512 .f32) (kk : Fin 8) (p : Fin 512)
    (n : ℕ) (hn : n ≤ 64) :
    BodyVal.accAt (F := Ideal) x0 x1 n (ix3 (0 : Fin 1) kk p)
      = ∑ i : Fin n, term x0 x1 kk p i.val (Nat.lt_of_lt_of_le i.isLt hn) := by
  induction n with
  | zero =>
    rw [Finset.univ_eq_empty, Finset.sum_empty]
    exact zero_apply kk p
  | succ n ih =>
    have hlt : n < k0_t1_loop.trips := by rw [trips_eq]; omega
    have ha := BodyVal.accAt_succ (F := Ideal) x0 x1 ⟨n, hlt⟩
    dsimp only at ha
    rw [ha, PayIdx.chan_apply, ih (Nat.le_of_succ_le hn), Fin.sum_univ_castSucc]
    refine congrArg (_ + ·) ?_
    unfold term
    rw [posRow_apply x1 ⟨n, hlt⟩ ⟨n, by omega⟩ rfl p, slabRow_slab x0 ⟨n, hlt⟩ ⟨n, by omega⟩ rfl kk]
    rfl

/-- The sum over the channel numbers below the trip count is the sum over the 64 channels. -/
private theorem sum_cast (x0 : Vec Ideal S1x64x128x128 .bf16) (x1 : Vec Ideal S1x64x512 .f32) (kk : Fin 8) (p : Fin 512)
    {m : ℕ} (hm : m = 64) :
    ∑ i : Fin m, term x0 x1 kk p i.val (Nat.lt_of_lt_of_le i.isLt (Nat.le_of_eq hm))
      = ∑ nc : Fin 64, Interp.tap (blockRow x0 nc kk) (x1 (ix3 (0 : Fin 1) nc p)) := by
  subst hm
  rfl

/-- The block the body leaves, at element `(kk, p)`: the sum over the channels of the interpolated value of the
    channel's signal row `kk` at the channel's position `p`. -/
theorem block_apply (x0 : Vec Ideal S1x64x128x128 .bf16) (x1 : Vec Ideal S1x64x512 .f32) (kk : Fin 8) (p : Fin 512) :
    BodyVal.accAt (F := Ideal) x0 x1 k0_t1_loop.trips (ix3 (0 : Fin 1) kk p)
      = ∑ nc : Fin 64, Interp.tap (blockRow x0 nc kk) (x1 (ix3 (0 : Fin 1) nc p)) := by
  rw [acc_sum x0 x1 kk p k0_t1_loop.trips (Nat.le_of_eq trips_eq)]
  exact sum_cast x0 x1 kk p trips_eq

end Cert.KernelIdeal.AccSum

end
-- ==== Proof.Blocks.lean ====
/-
  From the blocks the grid points write back to the whole result array of the region: point (b, z) writes block (b, ·, 512·z … 512·z + 511), whose element (kk, p) is the sum over the channels of the interpolated value of the re-laid signal's row (b, channel, kk) at the flattened delay table's entry (table of b, channel, 512·z + p); the blocks tile the array.
-/
import proofs.«423647_j15058155340289_3_alg».proof.Proof.AccSum
import proofs.«423647_j15058155340289_3_alg».proof.Proof.Gen.KernelIdeal.Frame

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- The delay-table number the table holds for batch `b` (below 4 under the region's side condition; the `min` only
    makes the definition total). -/
def tabIx (b : Fin 2) : Fin 4 := ⟨min (tbl m 0 (ix1 b)).toNat 3, by omega⟩

/-- The region's result array as ONE function of the arrays the region finds: element `(b, kk, q)` is the sum over
    the channels of the interpolated value of signal row `(b, channel, kk)` at the delay the table of `b` holds at
    `(channel, q)`. -/
def GK (c : Dev nD) : S2x8x65536.Idx → EReal :=
  fun j => ∑ nc : Fin 64, Interp.tap
    (fun s => (V m c main_v2 : S2x64x128x128.Idx → EReal) (ix4 (j 0) nc
      (⟨(j 1).val * 16 + s.val / 128, by have h1 : (j 1).val < 8 := (j 1).isLt; have := s.isLt; omega⟩ : Fin 128)
      (⟨s.val % 128, Nat.mod_lt _ (by decide)⟩ : Fin 128)))
    ((V m c main_v3 : S4x64x65536.Idx → EReal) (ix3 (tabIx m (j 0)) nc (j 2)))

/-! ## The blocks of the three windows, at any admissible contents of the table -/

section
variable (a : (pcfg0 (F := Ideal)).Adm)

/-- The index maps of the signal window and of the result window over the grid: point `t` is batch `t / 128`,
    column block `t % 128`. -/
private theorem grid_idx : ∀ t : Fin grid0.N,
    cc0_transform_0 (grid0.coords t) 0 = t.val / 128 ∧ cc0_transform_0 (grid0.coords t) 1 = 0
    ∧ cc0_transform_0 (grid0.coords t) 2 = 0 ∧ cc0_transform_0 (grid0.coords t) 3 = 0
    ∧ cc0_transform_2 (grid0.coords t) 0 = t.val / 128 ∧ cc0_transform_2 (grid0.coords t) 1 = 0
    ∧ cc0_transform_2 (grid0.coords t) 2 = t.val % 128
    ∧ (grid0.coords t 0).val = t.val / 128 ∧ (grid0.coords t 1).val = t.val % 128 := by decide +kernel

private theorem t_lt (t : Fin grid0.N) : t.val < 256 := lt_of_lt_of_eq t.isLt N_0

/-- The batch of a grid point. -/
private def bOf (t : Fin grid0.N) : Fin 2 := ⟨t.val / 128, by have := t_lt t; omega⟩
/-- The signal block of point `t` is batch `t / 128` of the signal array. -/
private theorem read_blk0 (A : S2x64x128x128.Idx → EReal) (t : Fin grid0.N) (nc : Fin 64) (r l : Fin 128) :
    (((cfg0 a).win 0).blk t).view.read (Elt Ideal) A (ix4 (0 : Fin 1) nc r l) = A (ix4 (bOf t) nc r l) := by
  show A _ = A _
  refine congrArg A ?_
  obtain ⟨e0, e1, e2, e3, _⟩ := grid_idx t
  funext d; apply Fin.ext
  match d with
  | ⟨0, _⟩ => show cc0_transform_0 (grid0.coords t) 0 * 1 + 1 * 0 = t.val / 128; rw [e0]; omega
  | ⟨1, _⟩ => show cc0_transform_0 (grid0.coords t) 1 * 64 + 1 * nc.val = nc.val; rw [e1]; omega
  | ⟨2, _⟩ => show cc0_transform_0 (grid0.coords t) 2 * 128 + 1 * r.val = r.val; rw [e2]; omega
  | ⟨3, _⟩ => show cc0_transform_0 (grid0.coords t) 3 * 128 + 1 * l.val = l.val; rw [e3]; omega

/-- The delay window's index map at a point: the table's word for the point's batch, 0, the column block. -/
private theorem idx1 (pf : pre0.Contents (Elt Ideal)) (t : Fin grid0.N) :
    cc0_transform_1 Facts₀.k0_off1_inb Facts₀.numel1_S1 pf (grid0.coords t) 0 = (pf 0 (ix1 (bOf t))).toNat
    ∧ cc0_transform_1 Facts₀.k0_off1_inb Facts₀.numel1_S1 pf (grid0.coords t) 1 = 0
    ∧ cc0_transform_1 Facts₀.k0_off1_inb Facts₀.numel1_S1 pf (grid0.coords t) 2 = t.val % 128 := by
  obtain ⟨_, _, _, _, _, _, _, g0, g1⟩ := grid_idx t
  have hb : (BitVec.ofNat 32 (grid0.coords t 0).val).toNat = t.val / 128 := by
    rw [BitVec.toNat_ofNat, g0]; have := t_lt t; omega
  have hz : (BitVec.ofNat 32 (grid0.coords t 1).val).toNat = t.val % 128 := by
    rw [BitVec.toNat_ofNat, g1]; have := t_lt t; omega
  refine ⟨?_, rfl, hz⟩
  show (pf 0 _).toNat = _
  refine congrArg (fun j => (pf 0 j).toNat) ?_
  funext d; apply Fin.ext
  match d with
  | ⟨0, _⟩ => show (BitVec.ofNat 32 (grid0.coords t 0).val).toNat + 1 * 0 = t.val / 128; rw [hb]; omega
/-- The delay block of point `t` is columns `512·(t % 128) …` of the delay table whose number the table holds for the
    point's batch. -/
private theorem read_blk1 (pf : pre0.Contents (Elt Ideal)) (hpf : a.1 = pf) (A : S4x64x65536.Idx → EReal) (t : Fin grid0.N)
    (nc : Fin 64) (p : Fin 512) (k : S4x64x65536.Idx)
    (hk0 : (k 0).val = (pf 0 (ix1 (bOf t))).toNat) (hk1 : (k 1).val = nc.val) (hk2 : (k 2).val = t.val % 128 * 512 + p.val) :
    (((cfg0 a).win 1).blk t).view.read (Elt Ideal) A (ix3 (0 : Fin 1) nc p) = A k := by
  subst hpf
  show A _ = A _
  refine congrArg A ?_
  obtain ⟨e0, e1, e2⟩ := idx1 a.1 t
  funext d; apply Fin.ext
  match d with
  | ⟨0, _⟩ => show cc0_transform_1 Facts₀.k0_off1_inb Facts₀.numel1_S1 a.1 (grid0.coords t) 0 * 1 + 1 * 0 = (k 0).val; rw [e0, hk0]; omega
  | ⟨1, _⟩ => show cc0_transform_1 Facts₀.k0_off1_inb Facts₀.numel1_S1 a.1 (grid0.coords t) 1 * 64 + 1 * nc.val = (k 1).val; rw [e1, hk1]; omega
  | ⟨2, _⟩ => show cc0_transform_1 Facts₀.k0_off1_inb Facts₀.numel1_S1 a.1 (grid0.coords t) 2 * 512 + 1 * p.val = (k 2).val; rw [e2, hk2]; omega

/-- Where element `(kk, p)` of point `t`'s result block sits in the result array. -/
private theorem emb_blk2 (t : Fin grid0.N) (j : S1x8x512.Idx) (k : S2x8x65536.Idx)
    (hk0 : (k 0).val = t.val / 128) (hk1 : (k 1).val = (j 1).val) (hk2 : (k 2).val = t.val % 128 * 512 + (j 2).val) :
    (((cfg0 a).win 2).blk t).view.emb j = k := by
  obtain ⟨_, _, _, _, e0, e1, e2, _⟩ := grid_idx t
  have h0 : (j 0).val < 1 := (j 0).isLt
  funext d; apply Fin.ext
  match d with
  | ⟨0, _⟩ => show cc0_transform_2 (grid0.coords t) 0 * 1 + 1 * (j 0).val = (k 0).val; rw [e0, hk0]; omega
  | ⟨1, _⟩ => show cc0_transform_2 (grid0.coords t) 1 * 8 + 1 * (j 1).val = (k 1).val; rw [e1, hk1]; omega
  | ⟨2, _⟩ => show cc0_transform_2 (grid0.coords t) 2 * 512 + 1 * (j 2).val = (k 2).val; rw [e2, hk2]; omega

/-- The result blocks tile the result array: element `(b, kk, q)` is in the block of point `(b, q / 512)`. -/
private theorem cover (i : S2x8x65536.Idx) :
    ∃ t : Fin (cfg0 a).N, ((cfg0 a).win 2).flush t = true ∧ i ∈ (((cfg0 a).win 2).blk t).view.set := by
  have h0 : (i 0).val < 2 := (i 0).isLt
  have h1 : (i 1).val < 8 := (i 1).isLt
  have h2 : (i 2).val < 65536 := (i 2).isLt
  let t : Fin grid0.N := ⟨(i 0).val * 128 + (i 2).val / 512, by rw [N_0]; omega⟩
  have ht : t.val = (i 0).val * 128 + (i 2).val / 512 := rfl
  refine ⟨t, flush0_2 a t, ?_⟩
  obtain ⟨_, _, _, _, e0, e1, e2, _⟩ := grid_idx t
  show i ∈ ((View.whole main_v5).slice (((cfg0 a).win 2).rect t)).set
  refine (Finset.ext_iff.mp (View.set_slice_whole main_v5 _) i).mpr ?_
  refine Rect.mem_set_unit.mpr ?_
  intro d
  match d with
  | ⟨0, _⟩ => show cc0_transform_2 (grid0.coords t) 0 * 1 ≤ (i 0).val ∧ (i 0).val < cc0_transform_2 (grid0.coords t) 0 * 1 + 1; rw [e0, ht]; omega
  | ⟨1, _⟩ => show cc0_transform_2 (grid0.coords t) 1 * 8 ≤ (i 1).val ∧ (i 1).val < cc0_transform_2 (grid0.coords t) 1 * 8 + 8; rw [e1]; omega
  | ⟨2, _⟩ => show cc0_transform_2 (grid0.coords t) 2 * 512 ≤ (i 2).val ∧ (i 2).val < cc0_transform_2 (grid0.coords t) 2 * 512 + 512; rw [e2, ht]; omega

/-- Under the region's side condition the table's word for a batch is a delay-table number. -/
private theorem word_lt (pf : pre0.Contents (Elt Ideal)) (h : ok0 pf) (b : Fin 2) : (pf 0 (ix1 b)).toNat < 4 := by
  let t : Fin grid0.N := ⟨b.val * 128, by rw [N_0]; have := b.isLt; omega⟩
  obtain ⟨hin, _⟩ := h (grid0.coords t)
  have h0 := hin 0
  have hb : bOf t = b := Fin.ext (by show b.val * 128 / 128 = b.val; omega)
  rw [(idx1 pf t).1, hb] at h0
  have : ((pf 0 (ix1 b)).toNat + 1) * 1 ≤ 4 := h0
  omega
end

/-- The block the body leaves, at any element: the sum over the channels of the interpolated values. -/
private theorem acc_at (x0 : Vec Ideal S1x64x128x128 .bf16) (x1 : Vec Ideal S1x64x512 .f32) (j : S1x8x512.Idx) :
    BodyVal.accAt (F := Ideal) x0 x1 k0_t1_loop.trips j
      = ∑ nc : Fin 64, Interp.tap (AccSum.blockRow x0 nc (j 1)) (x1 (ix3 (0 : Fin 1) nc (j 2))) := by
  have h0 : (j 0).val < 1 := (j 0).isLt
  have hj : j = ix3 (0 : Fin 1) (j 1) (j 2) := by
    funext d
    match d with
    | ⟨0, _⟩ => exact Fin.ext (by show (j 0).val = 0; omega)
    | ⟨1, _⟩ => rfl
    | ⟨2, _⟩ => rfl
  exact (congrArg (BodyVal.accAt (F := Ideal) x0 x1 k0_t1_loop.trips) hj).trans (AccSum.block_apply x0 x1 (j 1) (j 2))

/-- The same of the block the run leaves, whatever the staging buffers. -/
private theorem block_eq (c : Dev nD) (i : grid0.Coords) (arg3 : Memref sig .tc .vmem S1x64x128x128 .bf16) (harg3 : arg3.IsWhole)
    (arg4 : Memref sig .tc .vmem S1x64x512 .f32) (harg4 : arg4.IsWhole) (arg5 : Memref sig .tc .vmem S1x8x512 .f32) (harg5 : arg5.IsWhole)
    (x0 : Vec Ideal S1x64x128x128 .bf16) (x1 : Vec Ideal S1x64x512 .f32) (xt0 : TbBuf0 (F := Ideal) c tbM0_0) (j : S1x8x512.Idx) :
    out0_A_2 c i arg3 harg3 arg4 harg4 arg5 harg5 x0 x1 xt0 j
      = ∑ nc : Fin 64, Interp.tap (AccSum.blockRow x0 nc (j 1)) (x1 (ix3 (0 : Fin 1) nc (j 2))) := by
  rw [BodyVal.out_eq]
  exact acc_at x0 x1 j

/-- The region's result at an element given by its coordinates. -/
private theorem GK_ix3 (c : Dev nD) (b : Fin 2) (kk : Fin 8) (q : Fin 65536) :
    GK m c (ix3 b kk q) = ∑ nc : Fin 64, Interp.tap
      (fun s => (V m c main_v2 : S2x64x128x128.Idx → EReal) (ix4 b nc
        (⟨kk.val * 16 + s.val / 128, by have := kk.isLt; have := s.isLt; omega⟩ : Fin 128)
        (⟨s.val % 128, Nat.mod_lt _ (by decide)⟩ : Fin 128)))
      ((V m c main_v3 : S4x64x65536.Idx → EReal) (ix3 (tabIx m b) nc q)) := rfl

/-- WHAT POINT `t` WRITES BACK is block `t` of `GK`. -/
private theorem flushed_eq (hO : Ok m) (c : Dev nD) (t : Fin (cfgM m hO).N) :
    (dats m hO 0 c).flushed 2 t = (((cfgM m hO).win 2).blk t).view.read (Elt Ideal) (GK m c) := by
  show ((cfgM m hO).win 2).cut (grid0.coords t) ((dats m hO 0 c).after 2 t) = _
  rw [after0_2]
  unfold outsAt0
  refine funext fun (j : S1x8x512.Idx) => ?_
  have hz : t.val % 128 * 512 + (j 2).val < 65536 := by
    have h2 : (j 2).val < 512 := (j 2).isLt
    have := t_lt t; omega
  have hw := word_lt (tbl m) hO (bOf t)
  refine (block_eq c _ _ _ _ _ _ _ (iblk m hO c 0 t) (iblk m hO c 1 t) _ _).trans ?_
  refine Eq.trans ?_ (congrArg (GK m c) (emb_blk2 (adm m hO) t j (ix3 (bOf t) (j 1) ⟨t.val % 128 * 512 + (j 2).val, hz⟩) rfl rfl rfl)).symm
  refine Eq.trans ?_ (GK_ix3 m c _ _ _).symm
  refine Finset.sum_congr rfl fun nc _ => ?_
  refine congrArg₂ Interp.tap (funext fun s => ?_) ?_
  · exact read_blk0 (adm m hO) (V m c main_v2) t nc _ _
  · exact read_blk1 (adm m hO) (tbl m) rfl (V m c main_v3) t nc (j 2) _ (by show min _ 3 = _; omega) rfl rfl

/-- THE REGION'S RESULT: after the last write-back the result array holds `GK`. -/
theorem arr_eq (hO : Ok m) (c : Dev nD) : (dats m hO 0 c).arrAt 2 (cfgM m hO).N = GK m c :=
  (dats m hO 0 c).arrAt_eq_of_cover 2 (GK m c) (fun t _ => flushed_eq m hO c t) (cover (adm m hO))

end Cert.KernelIdeal.Blocks

end
-- ==== Proof.HostPre.lean ====
/-
  What the region finds when it is entered: the signal array re-laid (channel outermost, each signal row of 2048 samples folded into 16 rows of 128), the delay tables flattened over their two image axes, and the table of delay-table numbers (the batch's number clamped into 0 … 3), each read at an index; and the side condition of that table (every block it selects lies inside the flattened delay tables).
-/
import proofs.«423647_j15058155340289_3_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.HostPre

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- A batch's delay-table number as the launch holds it. -/
abbrev idsAt (b : Fin 2) : BitVec 32 := m (((0 : Dev nD).tc : Thread nD τ).loc main_arg1) (ix1 b)

/-- The table as a whole: the launch's numbers, first raised to at least `0`, then lowered to at most `3` (both
    bounds a scalar constant spread over the two batches). -/
private theorem tbl_eq :
    (tbl m 0 : S2.Idx → BitVec 32)
      = minsi (broadcastInDim S2 ![] bcast_S_S2 (constantI S_ 32 3#32))
          (maxsi (broadcastInDim S2 ![] bcast_S_S2 (constantI S_ 32 0#32)) (m (((0 : Dev nD).tc : Thread nD τ).loc main_arg1))) := by
  unfold tbl
  show V m 0 main_v4 = _
  dsimp only [V, V0]
  simp only [hostOps0, hostOps0_1, List.flatten_cons, List.flatten_nil, List.append_nil, List.cons_append, List.nil_append]
  after_results
  rfl

/-- The table the region reads holds, per batch, the batch's number clamped into `0 … 3` (signed). -/
theorem tbl_apply (b : Fin 2) : tbl m 0 (ix1 b) = IntOp.minsi 3#32 (IntOp.maxsi 0#32 (idsAt m b)) :=
  (congrFun (tbl_eq m) (ix1 b)).trans rfl

/-- A word clamped into `0 … 3` (signed) is below `4` (unsigned): below `0` it becomes `0`, above `3` it becomes
    `3`, and in between it is a non-negative signed word, whose unsigned value is its signed one. -/
private theorem clamp_lt (w : BitVec 32) : (IntOp.minsi 3#32 (IntOp.maxsi 0#32 w)).toNat < 4 := by
  unfold IntOp.minsi IntOp.maxsi
  by_cases h1 : (w.slt 0#32) = true
  · rw [if_pos h1]; rw [if_neg (by decide)]; decide
  · rw [if_neg h1]
    by_cases h2 : ((3#32).slt w) = true
    · rw [if_pos h2]; decide
    · rw [if_neg h2]
      simp only [BitVec.slt, decide_eq_true_eq, not_lt] at h1 h2
      have e := BitVec.toInt_eq_toNat_cond w
      have hlt := w.isLt
      have h0 : (0#32 : BitVec 32).toInt = 0 := by decide
      have h3 : (3#32 : BitVec 32).toInt = 3 := by decide
      rw [h0] at h1; rw [h3] at h2
      split at e <;> omega

/-- A clamped number is a delay-table number. -/
theorem tbl_lt (b : Fin 2) : (tbl m 0 (ix1 b)).toNat < 4 := by
  rw [tbl_apply]; exact clamp_lt _

/-- Whatever the table holds, the delay tables' block index at a grid point is: a word of the table, `0`, and the
    point's second coordinate as a word. -/
private theorem transform_1_form (pf : pre0.Contents (Elt F)) (i : grid0.Coords) :
    ∃ x : S2.Idx, cc0_transform_1 Facts₀.k0_off1_inb Facts₀.numel1_S1 pf i
      = ![(pf 0 x).toNat, (0#32 : BitVec 32).toNat, (BitVec.ofNat 32 (i 1).val).toNat] := ⟨_, rfl⟩

/-- A table all of whose words are below `4` selects only blocks inside the flattened delay tables: block
    `(w, 0, z)` of extents `1 × 64 × 512` has `(w + 1) · 1 ≤ 4`, `1 · 64 ≤ 64` and, `z` being below `128`,
    `(z + 1) · 512 ≤ 65536`; the elements are one word wide. -/
private theorem ok_of_lt (pf : pre0.Contents (Elt F)) (hlt : ∀ x : S2.Idx, (pf 0 x).toNat < 4) : ok0 (F := F) pf := by
  intro i
  obtain ⟨x, e⟩ := transform_1_form pf i
  refine ⟨fun a => ?_, Or.inl rfl⟩
  rw [e]
  have hx := hlt x
  have hi : (i 1).val < 128 := (i 1).isLt
  have hz : (BitVec.ofNat 32 (i 1).val).toNat = (i 1).val := by
    rw [BitVec.toNat_ofNat]; exact Nat.mod_eq_of_lt (by omega)
  match a with
  | ⟨0, _⟩ => show ((pf 0 x).toNat + 1) * 1 ≤ 4; omega
  | ⟨1, _⟩ => show ((0#32 : BitVec 32).toNat + 1) * 64 ≤ 64; decide
  | ⟨2, _⟩ => show ((BitVec.ofNat 32 (i 1).val).toNat + 1) * 512 ≤ 65536; rw [hz]; omega

/-- So every block the table selects lies inside the flattened delay tables: the region's side condition holds of
    every launch memory. -/
theorem ok : Ok m :=
  ok_of_lt (tbl m) fun x => by rw [eq_ix1 x]; exact tbl_lt m _

/-- The re-laid signal array as a whole: the launch's array with its two middle axes exchanged, read in row-major
    order at the new extents, its format changed. -/
private theorem V2_eq (m : (ℓ : Loc nD τ sig) → Buf (Elt Ideal) ℓ) (c : Dev nD) :
    (V m c main_v2 : S2x64x128x128.Idx → EReal)
      = (truncf (F := Ideal) .bf16 (φ := .f32) (shapeCast S2x64x128x128 (transpose S2x64x8x2048 [0, 2, 1, 3]
          (m ((c.tc : Thread nD τ).loc main_arg0) : S2x8x64x2048.Idx → EReal) transposes_S2x8x64x2048_S2x64x8x2048_0_2_1_3)
          shapeCasts_S2x64x8x2048_S2x64x128x128) bitsLt_bf16_f32 : S2x64x128x128.Idx → EReal) := by
  dsimp only [V, V0]
  simp only [hostOps0, hostOps0_1, List.flatten_cons, List.flatten_nil, List.append_nil, List.cons_append, List.nil_append]
  after_results
  rfl

/-- The re-laid signal array: entry `(b, nc, r, l)` is sample `128·(r mod 16) + l` of signal row `(b, r / 16, nc)`
    (the change of format is the identity on the extended reals). Row-major, entry `(b, nc, r, l)` of extents
    `2 × 64 × 128 × 128` and entry `(b, nc, r / 16, 128·(r mod 16) + l)` of extents `2 × 64 × 8 × 2048` have the same
    position, since `2048·(r / 16) + 128·(r mod 16) = 128·r`. -/
theorem V2_apply (m : (ℓ : Loc nD τ sig) → Buf (Elt Ideal) ℓ) (c : Dev nD) (b : Fin 2) (nc : Fin 64) (r l : Fin 128) :
    V m c main_v2 (ix4 b nc r l)
      = m ((c.tc : Thread nD τ).loc main_arg0) (ix4 b (⟨r.val / 16, by have := r.isLt; omega⟩ : Fin 8) nc
          (⟨(r.val % 16) * 128 + l.val, by have := l.isLt; omega⟩ : Fin 2048)) := by
  refine (congrFun (V2_eq m c) (ix4 b nc r l)).trans ?_
  generalize (m ((c.tc : Thread nD τ).loc main_arg0) : S2x8x64x2048.Idx → EReal) = y
  refine (truncf_apply _ bitsLt_bf16_f32 (ix4 b nc r l)).trans ?_
  refine (shapeCast_apply (s := S2x64x8x2048) (t := S2x64x128x128) _ shapeCasts_S2x64x8x2048_S2x64x128x128 (ix4 b nc r l)
    (ix4 b nc (⟨r.val / 16, by have := r.isLt; omega⟩ : Fin 8) (⟨(r.val % 16) * 128 + l.val, by have := l.isLt; omega⟩ : Fin 2048)) ?_).trans ?_
  · rw [Shape.rowMajor_val_four, Shape.rowMajor_val_four]
    have h0 := b.isLt; have h1 := nc.isLt; have h2 := r.isLt; have h3 := l.isLt
    show ((b.val * 64 + nc.val) * 8 + r.val / 16) * 2048 + ((r.val % 16) * 128 + l.val) = ((b.val * 64 + nc.val) * 128 + r.val) * 128 + l.val
    omega
  · exact transpose_apply [0, 2, 1, 3] y transposes_S2x8x64x2048_S2x64x8x2048_0_2_1_3 _ _ (fun a => match a with
      | ⟨0, _⟩ => rfl
      | ⟨1, _⟩ => rfl
      | ⟨2, _⟩ => rfl
      | ⟨3, _⟩ => rfl)

/-- The flattened delay tables as a whole: the launch's array read in row-major order at the new extents. -/
private theorem V3_eq (m : (ℓ : Loc nD τ sig) → Buf (Elt Ideal) ℓ) (c : Dev nD) :
    (V m c main_v3 : S4x64x65536.Idx → EReal)
      = shapeCast S4x64x65536 (m ((c.tc : Thread nD τ).loc main_arg2)) shapeCasts_S4x64x256x256_S4x64x65536 := by
  dsimp only [V, V0]
  simp only [hostOps0, hostOps0_1, List.flatten_cons, List.flatten_nil, List.append_nil, List.cons_append, List.nil_append]
  after_results
  rfl

/-- The flattened delay tables: entry `(i, nc, q)` is entry `(i, nc, q / 256, q mod 256)`. -/
theorem V3_apply (m : (ℓ : Loc nD τ sig) → Buf (Elt Ideal) ℓ) (c : Dev nD) (i : Fin 4) (nc : Fin 64) (q : Fin 65536) :
    V m c main_v3 (ix3 i nc q)
      = m ((c.tc : Thread nD τ).loc main_arg2) (ix4 i nc (⟨q.val / 256, by have := q.isLt; omega⟩ : Fin 256)
          (⟨q.val % 256, Nat.mod_lt _ (by decide)⟩ : Fin 256)) := by
  refine (congrFun (V3_eq m c) (ix3 i nc q)).trans ?_
  generalize m ((c.tc : Thread nD τ).loc main_arg2) = y
  refine shapeCast_apply (s := S4x64x256x256) (t := S4x64x65536) y shapeCasts_S4x64x256x256_S4x64x65536 (ix3 i nc q) _ ?_
  rw [Shape.rowMajor_val_four, Shape.rowMajor_val_three]
  have h0 := i.isLt; have h1 := nc.isLt; have h2 := q.isLt
  show ((i.val * 64 + nc.val) * 256 + q.val / 256) * 256 + q.val % 256 = (i.val * 64 + nc.val) * 65536 + q.val
  omega

end Cert.KernelIdeal.HostPre

end
-- ==== Proof.Tail.lean ====
/-
  The two host lines after the region: the result array [2, 8, 65536] transposed to [2, 65536, 8] and split to [2, 256, 256, 8]; element (b, z, x, k) of the program's result is element (b, k, 256·z + x) of the region's.
-/
import proofs.«423647_j15058155340289_3_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Tail

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- A [2, 8, 65536] array transposed to [2, 65536, 8] and split to [2, 256, 256, 8], read at `(b, z, x, k)`:
    the array's element `(b, k, 256·z + x)`. -/
private theorem read_tail {α : Type} (y : S2x8x65536.Idx → α) (b : Fin 2) (z x : Fin 256) (k : Fin 8) :
    shapeCast S2x256x256x8 (transpose S2x65536x8 [0, 2, 1] y transposes_S2x8x65536_S2x65536x8_0_2_1)
        shapeCasts_S2x65536x8_S2x256x256x8 (ix4 b z x k)
      = y (ix3 b k (⟨z.val * 256 + x.val, by have := z.isLt; have := x.isLt; omega⟩ : Fin 65536)) := by
  have hz := z.isLt
  have hx := x.isLt
  refine (shapeCast_apply _ shapeCasts_S2x65536x8_S2x256x256x8 (ix4 b z x k)
    (ix3 b (⟨z.val * 256 + x.val, by omega⟩ : Fin 65536) k) ?_).trans ?_
  · rewrite [Shape.rowMajor_val_three, Shape.rowMajor_val_four]
    show ((b.val * 65536 + (z.val * 256 + x.val)) * 8 + k.val) = ((b.val * 256 + z.val) * 256 + x.val) * 8 + k.val
    omega
  · exact transpose_apply [0, 2, 1] y transposes_S2x8x65536_S2x65536x8_0_2_1 _ _ (fun a => match a with
      | ⟨0, _⟩ => rfl
      | ⟨1, _⟩ => rfl
      | ⟨2, _⟩ => rfl)

/-- The program's result at `(b, z, x, k)` is the region's result array at `(b, k, 256·z + x)`. -/
theorem tail_apply (hO : Ok m) (c : Dev nD) (b : Fin 2) (z x : Fin 256) (k : Fin 8) :
    Pipeline.afterTail pcfgs (fun _ => adm m hO) (dats m hO) 0 (V0 m) [hostOps1] c main_v7 (ix4 b z x k)
      = (dats m hO 0 c).arrAt 2 (cfgM m hO).N
          (ix3 b k (⟨z.val * 256 + x.val, by have := z.isLt; have := x.isLt; omega⟩ : Fin 65536)) := by
  unfold Pipeline.afterTail
  simp only [List.flatten_cons, List.flatten_nil, List.append_nil]
  after_results
  refine (read_tail _ b z x k).trans ?_
  exact congrFun (Pipeline.withArrays_arr (τ := τ) spec0 (launch0 (F := F)).win.arr_inj c (V0 m c) _ 2) _

end Cert.KernelIdeal.Tail

end
-- ==== Proof.KernelRun.lean ====
/-
  The idealized kernel program's run with its result named: every weakly fair execution ends with the result array at the interpolation sum of the arguments, the delay table of a batch being the batch's number clamped into 0 … 3. The pieces: the region's result array (the blocks the grid points write back), what the region finds at entry (the re-laid signal, the flattened delay tables, the table of clamped numbers), and the two host lines after the region.
-/
import proofs.«423647_j15058155340289_3_alg».proof.Proof.Blocks
import proofs.«423647_j15058155340289_3_alg».proof.Proof.HostPre
import proofs.«423647_j15058155340289_3_alg».proof.Proof.Tail

set_option maxRecDepth 16384

noncomputable section

open scoped BigOperators

namespace Cert.KernelIdeal.KernelRun

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The delay table the kernel's host line selects for a batch whose number is the word `w`: `w` clamped into
    `0 … 3` (signed). -/
def tabK (w : BitVec 32) : Fin 4 := ⟨min (IntOp.minsi 3#32 (IntOp.maxsi 0#32 w)).toNat 3, by omega⟩

theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha; subst hb; subst hc; subst hd; rfl

/-- The table number the region reads for batch `b` is the clamped batch number. -/
theorem tabIx_eq (c : Dev nD) (b : Fin 2) :
    Blocks.tabIx m b = tabK (m ((c.tc : Thread nD τ).loc main_arg1) (ix1 b)) := by
  obtain rfl : c = 0 := Subsingleton.elim _ _
  apply Fin.ext
  show min (tbl m 0 (ix1 b)).toNat 3 = min _ 3
  rw [HostPre.tbl_apply]

/-- THE PROGRAM'S RESULT at one element: the interpolation sum. -/
theorem result_apply (hO : Ok m) (c : Dev nD) (b : Fin 2) (z x : Fin 256) (k : Fin 8) :
    Pipeline.afterTail pcfgs (fun _ => adm m hO) (dats m hO) 0 (V0 m) [hostOps1] c main_v7 (ix4 b z x k)
      = Interp.G (fun b => tabK (m ((c.tc : Thread nD τ).loc main_arg1) (ix1 b)))
          (m ((c.tc : Thread nD τ).loc main_arg0)) (m ((c.tc : Thread nD τ).loc main_arg2)) (ix4 b z x k) := by
  rw [Tail.tail_apply, Blocks.arr_eq]
  show @Eq EReal (Blocks.GK m c _) (Interp.G _ _ _ _)
  unfold Blocks.GK Interp.G
  refine Finset.sum_congr rfl fun nc _ => ?_
  refine congr (congrArg Interp.tap (funext fun s => ?_)) ?_
  · show V m c main_v2 (ix4 b nc _ _) = _
    rw [HostPre.V2_apply]
    refine congrArg (m ((c.tc : Thread nD τ).loc main_arg0)) (ix4_congr rfl (Fin.ext ?_) rfl (Fin.ext ?_))
    · show (k.val * 16 + s.val / 128) / 16 = k.val
      have := s.isLt; omega
    · show (k.val * 16 + s.val / 128) % 16 * 128 + s.val % 128 = s.val
      have := s.isLt; omega
  · show V m c main_v3 (ix3 (Blocks.tabIx m b) nc _) = _
    rw [HostPre.V3_apply, tabIx_eq m c b]
    refine congrArg (m ((c.tc : Thread nD τ).loc main_arg2)) (ix4_congr rfl rfl (Fin.ext ?_) (Fin.ext ?_))
    · show (z.val * 256 + x.val) / 256 = z.val
      have := x.isLt; omega
    · show (z.val * 256 + x.val) % 256 = x.val
      have := x.isLt; omega

/-- THE KERNEL PROGRAM'S RUN with its result named. -/
theorem run : θ_run defs (onTc (τ := τ) (main (F := Ideal))) ⟨m, fun _ => 0, ρ⟩ fun r => ∀ c : Dev nD,
      r.2.mem ((c.tc : Thread nD τ).loc main_v7)
        = Interp.G (fun b => tabK (m ((c.tc : Thread nD τ).loc main_arg1) (ix1 b)))
            (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hO : Ok m := HostPre.ok m
  refine (θ_run defs _ _).mono (fun r hq c => ?_) (run_main m ρ hO)
  refine ⟨((hq c).2 main_v7 (by decide : main_v7 ∈ Pipeline.restRefs sig spec0)).trans ?_,
    ((hq c).2 main_arg0 (by decide : main_arg0 ∈ Pipeline.restRefs sig spec0)).trans (W_main_arg0 m hO (dats m hO) c),
    ((hq c).2 main_arg1 (by decide : main_arg1 ∈ Pipeline.restRefs sig spec0)).trans (W_main_arg1 m hO (dats m hO) c),
    ((hq c).2 main_arg2 (by decide : main_arg2 ∈ Pipeline.restRefs sig spec0)).trans (W_main_arg2 m hO (dats m hO) c)⟩
  funext j
  obtain ⟨b, z, x, k, rfl⟩ : ∃ (b : Fin 2) (z x : Fin 256) (k : Fin 8), j = ix4 b z x k := ⟨j 0, j 1, j 2, j 3, eq_ix4 j⟩
  exact result_apply m hO c b z x k

end Cert.KernelIdeal.KernelRun

end
-- ==== Proof.RefRun.lean ====
/-
  The reference program's run with its result named stage by stage: every weakly fair execution of its @main
  ends with the result buffer at the last stage's value of the three arguments, the arguments unchanged.

  The program is a straight line of host operations, so after the run every buffer holds the fold of the
  operations' results over the launch contents. That fold is read at a few buffers directly (the fractional
  parts, the positions, the two weights' factors, the two clamped positions, and inside each row gather its
  in-range bits and its gathered values); the later buffers are read from those: a later operation's result is its
  function of its operands' contents, and both sides of each equation unfold to one and the same term over the
  launch contents.
-/
import proofs.«423647_j15058155340289_3_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]
variable (m : (ℓ : Loc nD τ sig) → Buf (Elt F) ℓ)

/-! ## Buffers read directly off the fold -/

set_option maxRecDepth 65536 in
set_option maxHeartbeats 8000000 in
theorem at_v8 (c : Dev nD) :
    after ops (launchContents m c) (Proc.devRef .tc main_v8) = val_main_v8 (F := F) (m ((c.tc : Thread nD τ).loc main_arg1)) (m ((c.tc : Thread nD τ).loc main_arg2)) := by
  after_results_simp
  rfl

set_option maxRecDepth 65536 in
set_option maxHeartbeats 8000000 in
theorem at_v11 (c : Dev nD) :
    after ops (launchContents m c) (Proc.devRef .tc main_v11) = val_main_v11 (F := F) (m ((c.tc : Thread nD τ).loc main_arg1)) (m ((c.tc : Thread nD τ).loc main_arg2)) := by
  after_results_simp
  rfl

set_option maxRecDepth 65536 in
set_option maxHeartbeats 8000000 in
theorem at_v17 (c : Dev nD) :
    after ops (launchContents m c) (Proc.devRef .tc main_v17) = val_main_v17 (F := F) (m ((c.tc : Thread nD τ).loc main_arg1)) (m ((c.tc : Thread nD τ).loc main_arg2)) := by
  after_results_simp
  rfl

set_option maxRecDepth 65536 in
set_option maxHeartbeats 8000000 in
theorem at_v34 (c : Dev nD) :
    after ops (launchContents m c) (Proc.devRef .tc main_v34) = val_main_v34 (F := F) (m ((c.tc : Thread nD τ).loc main_arg1)) (m ((c.tc : Thread nD τ).loc main_arg2)) := by
  after_results_simp
  rfl

set_option maxRecDepth 65536 in
set_option maxHeartbeats 8000000 in
theorem at_call1_v12 (c : Dev nD) :
    after ops (launchContents m c) (Proc.devRef .tc main_call1_v12) = val_main_call1_v12 (F := F) (m ((c.tc : Thread nD τ).loc main_arg1)) (m ((c.tc : Thread nD τ).loc main_arg2)) := by
  after_results_simp
  simp only [TRef.ofBuf, TRef.toBuf, cast_eq]
  rfl

set_option maxRecDepth 65536 in
set_option maxHeartbeats 8000000 in
theorem at_call1_v13 (c : Dev nD) :
    after ops (launchContents m c) (Proc.devRef .tc main_call1_v13) = val_main_call1_v13 (F := F) (m ((c.tc : Thread nD τ).loc main_arg0)) (m ((c.tc : Thread nD τ).loc main_arg1)) (m ((c.tc : Thread nD τ).loc main_arg2)) := by
  after_results_simp
  simp only [TRef.ofBuf, TRef.toBuf, cast_eq]
  rfl

set_option maxRecDepth 65536 in
set_option maxHeartbeats 8000000 in
theorem at_call1_v14 (c : Dev nD) :
    after ops (launchContents m c) (Proc.devRef .tc main_call1_v14) = val_main_call1_v14 (F := F)  := by
  after_results_simp
  simp only [TRef.ofBuf, TRef.toBuf, cast_eq]
  rfl

set_option maxRecDepth 65536 in
set_option maxHeartbeats 8000000 in
theorem at_call3_v12 (c : Dev nD) :
    after ops (launchContents m c) (Proc.devRef .tc main_call3_v12) = val_main_call3_v12 (F := F) (m ((c.tc : Thread nD τ).loc main_arg1)) (m ((c.tc : Thread nD τ).loc main_arg2)) := by
  after_results_simp
  simp only [TRef.ofBuf, TRef.toBuf, cast_eq]
  rfl

set_option maxRecDepth 65536 in
set_option maxHeartbeats 8000000 in
theorem at_call3_v13 (c : Dev nD) :
    after ops (launchContents m c) (Proc.devRef .tc main_call3_v13) = val_main_call3_v13 (F := F) (m ((c.tc : Thread nD τ).loc main_arg0)) (m ((c.tc : Thread nD τ).loc main_arg1)) (m ((c.tc : Thread nD τ).loc main_arg2)) := by
  after_results_simp
  simp only [TRef.ofBuf, TRef.toBuf, cast_eq]
  rfl

set_option maxRecDepth 65536 in
set_option maxHeartbeats 8000000 in
theorem at_call3_v14 (c : Dev nD) :
    after ops (launchContents m c) (Proc.devRef .tc main_call3_v14) = val_main_call3_v14 (F := F)  := by
  after_results_simp
  simp only [TRef.ofBuf, TRef.toBuf, cast_eq]
  rfl

/-! ## The later buffers, from those -/

set_option maxRecDepth 65536 in
set_option maxHeartbeats 8000000 in
theorem at_v21 (c : Dev nD) :
    after ops (launchContents m c) (Proc.devRef .tc main_v21) = val_main_v21 (F := F) (m ((c.tc : Thread nD τ).loc main_arg0)) (m ((c.tc : Thread nD τ).loc main_arg1)) (m ((c.tc : Thread nD τ).loc main_arg2)) := by
  have key : ∀ (y12 : main_call1_v12.ty.Contents (Elt F)) (y13 : main_call1_v13.ty.Contents (Elt F))
      (y14 : main_call1_v14.ty.Contents (Elt F)),
      (TRef.of (T := ⟨S2x8x64x65536, .f32⟩) main_v21).toBuf
        (select ((TRef.of (T := ⟨S2x8x64x65536, .i1⟩) main_call1_v12).ofBuf y12)
          ((TRef.of (T := ⟨S2x8x64x65536, .f32⟩) main_call1_v13).ofBuf y13)
          ((TRef.of (T := ⟨S2x8x64x65536, .f32⟩) main_call1_v14).ofBuf y14))
        = select y12 y13 y14 := fun _ _ _ => rfl
  unfold val_main_v21
  rw [← at_call1_v12 m c, ← at_call1_v13 m c, ← at_call1_v14 m c]
  after_results_simp
  exact key _ _ _
set_option maxRecDepth 65536 in
set_option maxHeartbeats 8000000 in
theorem at_v38 (c : Dev nD) :
    after ops (launchContents m c) (Proc.devRef .tc main_v38) = val_main_v38 (F := F) (m ((c.tc : Thread nD τ).loc main_arg0)) (m ((c.tc : Thread nD τ).loc main_arg1)) (m ((c.tc : Thread nD τ).loc main_arg2)) := by
  have key : ∀ (y12 : main_call3_v12.ty.Contents (Elt F)) (y13 : main_call3_v13.ty.Contents (Elt F))
      (y14 : main_call3_v14.ty.Contents (Elt F)),
      (TRef.of (T := ⟨S2x8x64x65536, .f32⟩) main_v38).toBuf
        (select ((TRef.of (T := ⟨S2x8x64x65536, .i1⟩) main_call3_v12).ofBuf y12)
          ((TRef.of (T := ⟨S2x8x64x65536, .f32⟩) main_call3_v13).ofBuf y13)
          ((TRef.of (T := ⟨S2x8x64x65536, .f32⟩) main_call3_v14).ofBuf y14))
        = select y12 y13 y14 := fun _ _ _ => rfl
  unfold val_main_v38
  rw [← at_call3_v12 m c, ← at_call3_v13 m c, ← at_call3_v14 m c]
  after_results_simp
  exact key _ _ _
set_option maxRecDepth 65536 in
set_option maxHeartbeats 8000000 in
theorem at_v26 (c : Dev nD) :
    after ops (launchContents m c) (Proc.devRef .tc main_v26) = val_main_v26 (F := F) (m ((c.tc : Thread nD τ).loc main_arg0)) (m ((c.tc : Thread nD τ).loc main_arg1)) (m ((c.tc : Thread nD τ).loc main_arg2)) := by
  unfold val_main_v26 val_main_v22 val_main_v25 val_main_v24 val_main_v23
  rw [← at_v21 m c, ← at_v11 m c, ← at_v17 m c]
  after_results_simp
  rfl

set_option maxRecDepth 65536 in
set_option maxHeartbeats 8000000 in
theorem at_v43 (c : Dev nD) :
    after ops (launchContents m c) (Proc.devRef .tc main_v43) = val_main_v43 (F := F) (m ((c.tc : Thread nD τ).loc main_arg0)) (m ((c.tc : Thread nD τ).loc main_arg1)) (m ((c.tc : Thread nD τ).loc main_arg2)) := by
  unfold val_main_v43 val_main_v39 val_main_v42 val_main_v41 val_main_v40
  rw [← at_v38 m c, ← at_v8 m c, ← at_v34 m c]
  after_results_simp
  rfl

set_option maxRecDepth 65536 in
set_option maxHeartbeats 8000000 in
theorem at_v46 (c : Dev nD) :
    after ops (launchContents m c) (Proc.devRef .tc main_v46) = val_main_v46 (F := F) (m ((c.tc : Thread nD τ).loc main_arg0)) (m ((c.tc : Thread nD τ).loc main_arg1)) (m ((c.tc : Thread nD τ).loc main_arg2)) := by
  unfold val_main_v46 val_main_v45 val_main_v44 val_main_cst_10
  rw [← at_v26 m c, ← at_v43 m c]
  after_results_simp

/-! ## The run -/

/-- On every device, for any float values, from any memory with zero counters: every weakly fair execution of @main
    terminates with the result at the last stage's value of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v46)
        = val_main_v46 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v46).trans (at_v46 m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefGather.lean ====
/-
  The reference's three operations whose element depends on an operand's values, each read at an index: the gather that picks a delay table per batch (the start word read signed and clamped into 0 … 3), the gather along the sample axis (the start word read signed and clamped into 0 … 2047), and the conjunction over the trailing axis of extent one.
-/
import proofs.«423647_j15058155340289_3_alg».proof.Proof.Gen.ReferenceIdeal
import Idealize.ShloMosaic.Lib.ValueIdx
import Idealize.ShloMosaic.Lib.Pipeline.Value
import Idealize.ShloMosaic.PureOps.Reduce

set_option maxRecDepth 16384

noncomputable section

open scoped BigOperators

namespace Cert.ReferenceIdeal.RefGather

open Idealize.ShloMosaic Idealize.ShloMosaic.TcCoe Idealize.ShloMosaic.ValueIdx
open Idealize.SL Idealize.SL.Sem
open Cert.ReferenceIdeal Cert.ReferenceIdeal.Gen

/-- The gather of a whole delay table per batch: element `(b, nc, z, x)` is the tables' element
    `(t, nc, z, x)` with `t` the batch's start word, read signed and clamped into `0 … 3`. -/
theorem gather_table {α : Type} (x : S4x64x256x256.Idx → α) (idx : IVec S2x1 32) (b : Fin 2) (nc : Fin 64) (z xx : Fin 256) :
    Host.gather gather_S4x64x256x256_S2x1_S2x64x256x256_123_0_n_n_0_1_164256256 x idx (ix4 b nc z xx)
      = x (ix4 (⟨min (idx (ix2 b (0 : Fin 1))).toInt.toNat 3, by omega⟩ : Fin 4) nc z xx) := by
  -- the operand index, axis by axis: axis 0 is collapsed and carries the clamped start (4 − 1 = 3),
  -- axes 1, 2, 3 are the result's offset axes 1, 2, 3 with start 0
  unfold Host.gather
  refine congrArg x ?_
  funext a
  apply Fin.ext
  fin_cases a <;>
    simp [GatherDims.operandIdx, GatherDims.start, GatherDims.offCoord, GatherDims.batchCoord,
      gather_S4x64x256x256_S2x1_S2x64x256x256_123_0_n_n_0_1_164256256, GatherDims.sKept, Shape.kept]
  · -- the start word is read at (b, 0): the result's one batch axis, then the index vector's component 0
    refine congrArg (fun i => min (idx i).toInt.toNat 3) ?_
    funext c
    apply Fin.ext
    match c with
    | ⟨0, _⟩ => rfl
    | ⟨1, _⟩ => rfl
  · rfl
  · rfl
  · rfl

/-- The gather along the sample axis: element `(b, k, nc, q)` is the signal's element `(b, k, nc, s)` with `s`
    the start word at `(b, k, nc, q, 0)`, read signed and clamped into `0 … 2047`. -/
theorem gather_sample {α : Type} (x : S2x8x64x2048.Idx → α) (idx : IVec S2x8x64x65536x1 32) (b : Fin 2) (k : Fin 8) (nc : Fin 64) (q : Fin 65536) :
    Host.gather gather_S2x8x64x2048_S2x8x64x65536x1_S2x8x64x65536_n_3_012_012_3_4_1111 x idx (ix4 b k nc q)
      = x (ix4 b k nc (⟨min (idx (ix5 b k nc q (0 : Fin 1))).toInt.toNat 2047, by omega⟩ : Fin 2048)) := by
  -- the operand index, axis by axis: axes 0, 1, 2 are batching axes and carry the result's coordinates 0, 1, 2,
  -- axis 3 is collapsed and carries the clamped start (2048 − 1 = 2047)
  unfold Host.gather
  refine congrArg x ?_
  funext a
  apply Fin.ext
  fin_cases a <;>
    simp [GatherDims.operandIdx, GatherDims.start, GatherDims.offCoord, GatherDims.batchCoord,
      gather_S2x8x64x2048_S2x8x64x65536x1_S2x8x64x65536_n_3_012_012_3_4_1111, GatherDims.sKept, Shape.kept]
  · rfl
  · rfl
  · rfl
  · -- the start word is read at (b, k, nc, q, 0): the result's four coordinates, then component 0
    refine congrArg (fun i => min (idx i).toInt.toNat 2047) ?_
    funext c
    apply Fin.ext
    match c with
    | ⟨0, _⟩ => rfl
    | ⟨1, _⟩ => rfl
    | ⟨2, _⟩ => rfl
    | ⟨3, _⟩ => rfl
    | ⟨4, _⟩ => rfl

/-- A fold of a commutative associative operation over an index range of one element is the operation applied once. -/
private theorem fold_fin_one {β : Type} {n : Nat} (hn : n = 1) (op : β → β → β) [Std.Commutative op] [Std.Associative op]
    (v : β) (f : Fin n → β) : (Finset.univ : Finset (Fin n)).fold op v f = op (f ⟨0, by omega⟩) v := by
  subst hn
  rw [Finset.univ_unique, Finset.fold_singleton]
  rfl

/-- `true` is neutral for the conjunction of one-bit words. -/
private theorem and_one (v : BitVec 1) : IntOp.andi v 1#1 = v := by
  have e : (1#1 : BitVec 1) = BitVec.allOnes 1 := by decide
  unfold IntOp.andi
  rw [e, BitVec.and_allOnes]

/-- The conjunction over the trailing axis of extent one, from `true`: the one bit itself. -/
theorem reduce_and_unit (x : IVec S2x8x64x65536x1 1) (b : Fin 2) (k : Fin 8) (nc : Fin 64) (q : Fin 65536) :
    Host.reduce IntOp.andi x (constantI S_ 1 1#1) reducesTo_S2x8x64x65536x1_S2x8x64x65536_d4 h_S_ (ix4 b k nc q)
      = x (ix5 b k nc q (0 : Fin 1)) := by
  -- the reduction at (b, k, nc, q) is the fold over the dropped axis's coordinates, of which there is one
  have h : S2x8x64x65536x1.Reduces [(4 : Fin 5)] S2x8x64x65536 := by decide
  rw [Host.reduce_eq_fold_single IntOp.andi x _ reducesTo_S2x8x64x65536x1_S2x8x64x65536_d4 h h_S_ (ix4 b k nc q)]
  refine (fold_fin_one (rfl : S2x8x64x65536x1.size 4 = 1) IntOp.andi _ _).trans ?_
  refine (and_one _).trans ?_
  -- the source index over (b, k, nc, q) with coordinate 0 on the dropped axis is (b, k, nc, q, 0)
  refine congrArg x ?_
  funext c
  apply Fin.ext
  match c with
  | ⟨0, _⟩ => rfl
  | ⟨1, _⟩ => rfl
  | ⟨2, _⟩ => rfl
  | ⟨3, _⟩ => rfl
  | ⟨4, _⟩ => rfl

end Cert.ReferenceIdeal.RefGather

end
-- ==== Proof.RefVal.lean ====
/-
  The reference's result as the interpolation sum: element (b, z, x, k) of its result is the sum over the channels of the interpolated value of signal row (b, k, channel) at the delay that table t(b) holds at (channel, z, x), where t(b) is the batch's number wrapped when negative and clamped into 0 … 3, as the indexing reads it.
-/
import proofs.«423647_j15058155340289_3_alg».proof.Proof.RefRead
import proofs.«423647_j15058155340289_3_alg».proof.Proof.RefGather
import proofs.«423647_j15058155340289_3_alg».proof.Proof.Spec

set_option maxRecDepth 16384

noncomputable section

open scoped BigOperators

namespace Cert.ReferenceIdeal.RefVal

open Idealize.ShloMosaic Idealize.ShloMosaic.TcCoe Idealize.ShloMosaic.ValueIdx
open Idealize.SL Idealize.SL.Sem
open Cert.ReferenceIdeal Cert.ReferenceIdeal.Gen
open Cert.ReferenceIdeal.ReadP

/-- The delay table the reference's indexing selects for a batch whose number is the word `w`: `w + 4` when `w` is
    negative, else `w`, read signed and clamped into `0 … 3`. -/
def tabR (w : BitVec 32) : Fin 4 :=
  ⟨min (Scalar.select (IntOp.cmpi .slt w 0#32) (IntOp.addi w 4#32) w).toInt.toNat 3, by omega⟩

/-! ## Words: a position clamped into the row -/

/-- A word below 2048 reads the same signed and unsigned. -/
private theorem toInt_of_lt (w : BitVec 32) (h : w.toNat < 2048) : w.toInt = (w.toNat : Int) := by
  have e := BitVec.toInt_eq_toNat_cond w
  split at e <;> omega

/-- A word below 2048 is not negative: the wrap of a negative index leaves it alone. -/
private theorem wrap_of_lt (w : BitVec 32) (h : w.toNat < 2048) :
    Scalar.select (IntOp.cmpi .slt w 0#32) (IntOp.addi w 2048#32) w = w := by
  have hi := toInt_of_lt w h
  have h0 : (0#32 : BitVec 32).toInt = 0 := by decide
  have hs : w.slt 0#32 = false := by
    simp only [BitVec.slt, h0, decide_eq_false_iff_not, not_lt]; omega
  have hc : IntOp.cmpi .slt w 0#32 = 0#1 := by
    show BitVec.ofBool (w.slt 0#32) = 0#1
    rw [hs]; rfl
  rw [hc, select_zero]

/-- A word below 2048 passes the range test `0 ≤ w ≤ 2047`. -/
private theorem inb_of_lt (w : BitVec 32) (h : w.toNat < 2048) :
    IntOp.andi (IntOp.cmpi .sge w 0#32) (IntOp.cmpi .sle w 2047#32) = 1#1 := by
  have hi := toInt_of_lt w h
  have h0 : (0#32 : BitVec 32).toInt = 0 := by decide
  have h47 : (2047#32 : BitVec 32).toInt = 2047 := by decide
  have hs0 : (0#32 : BitVec 32).sle w = true := by
    simp only [BitVec.sle, h0, decide_eq_true_eq]; omega
  have hs1 : w.sle 2047#32 = true := by
    simp only [BitVec.sle, h47, decide_eq_true_eq]; omega
  show IntOp.andi (BitVec.ofBool ((0#32 : BitVec 32).sle w)) (BitVec.ofBool (w.sle 2047#32)) = 1#1
  rw [hs0, hs1]; rfl

/-- A word below 2048, read signed and clamped into `0 … 2047`, is its own number. -/
private theorem clampNat_of_lt (w : BitVec 32) (h : w.toNat < 2048) : min w.toInt.toNat 2047 = w.toNat := by
  have hi := toInt_of_lt w h
  have : w.toInt.toNat = w.toNat := by rw [hi]; exact Int.toNat_natCast _
  omega

/-! ## A weight times a bit turned into a number -/

/-- A number times the bit `b` read as `0` or `1` is the number where the bit is set and `0` elsewhere. -/
private theorem mul_bit (x : EReal) (b : BitVec 1) :
    FloatOps.mulf (F := Ideal) (φ := .f32) x (FloatOps.uitofp .f32 b) = Scalar.select b x 0 := by
  show x * (((b.toNat : ℝ)) : EReal) = Scalar.select b x 0
  by_cases h : b = 1#1
  · subst h; rw [select_one]; simp
  · have h0 := eq_zero_of_ne_one h; subst h0; rw [select_zero]; simp

/-! ## The delay read by an element, its two positions and its two weights -/

section Pos
variable (x1 : (⟨S2, .i32⟩ : BufTy).Contents (Elt Ideal)) (x2 : (⟨S4x64x256x256, .f32⟩ : BufTy).Contents (Elt Ideal))
variable (b : Fin 2) (nc : Fin 64) (z x : Fin 256)

/-- The gathered delay: table `tabR` of the batch's number, at `(channel, z, x)`. -/
private theorem v6_at :
    val_main_v6 (F := Ideal) x1 x2 (ix4 b nc z x) = x2 (ix4 (tabR (x1 (ix1 b))) nc z x) := by
  unfold val_main_v6
  refine (RefGather.gather_table x2 (val_main_v5 (F := Ideal) x1) b nc z x).trans ?_
  have e : val_main_v5 (F := Ideal) x1 (ix2 b (0 : Fin 1))
      = Scalar.select (IntOp.cmpi .slt (x1 (ix1 b)) 0#32) (IntOp.addi (x1 (ix1 b)) 4#32) (x1 (ix1 b)) := by
    have hi : idx_main_v5 (ix2 b (0 : Fin 1)) = ix1 b :=
      funext fun a => Fin.ext (by match a with | ⟨0, _⟩ => rfl)
    rw [val_main_v5_apply, hi, val_main_v4_apply, val_main_v1_apply, val_main_v3_apply, val_main_v0_apply,
      val_main_v2_apply]
    rfl
  have ht : (⟨min (val_main_v5 (F := Ideal) x1 (ix2 b (0 : Fin 1))).toInt.toNat 3, by omega⟩ : Fin 4)
      = tabR (x1 (ix1 b)) := Fin.ext (by show min _ 3 = min _ 3; rw [e])
  exact congrArg (fun t => x2 (ix4 t nc z x)) ht

/-- Its floor. -/
private theorem v7_at :
    val_main_v7 (F := Ideal) x1 x2 (ix4 b nc z x) = Interp.fl (x2 (ix4 (tabR (x1 (ix1 b))) nc z x)) := by
  rw [val_main_v7_apply, v6_at]; rfl

/-- Its fractional part. -/
private theorem v8_at :
    val_main_v8 (F := Ideal) x1 x2 (ix4 b nc z x) = Interp.frac (x2 (ix4 (tabR (x1 (ix1 b))) nc z x)) := by
  rw [val_main_v8_apply, v7_at, v6_at]; rfl

/-- The left tap's position. -/
private theorem v9_at :
    val_main_v9 (F := Ideal) x1 x2 (ix4 b nc z x) = Interp.pos0 (x2 (ix4 (tabR (x1 (ix1 b))) nc z x)) := by
  rw [val_main_v9_apply, v7_at]; rfl

/-- The right tap's position. -/
private theorem v28_at :
    val_main_v28 (F := Ideal) x1 x2 (ix4 b nc z x) = Interp.pos1 (x2 (ix4 (tabR (x1 (ix1 b))) nc z x)) := by
  rw [val_main_v28_apply, v9_at, val_main_v27_apply, val_main_c_5_apply]; rfl

/-- The left tap's position clamped into the row. -/
private theorem v18_at :
    val_main_v18 (F := Ideal) x1 x2 (ix4 b nc z x)
      = Interp.clampW (Interp.pos0 (x2 (ix4 (tabR (x1 (ix1 b))) nc z x))) := by
  rw [val_main_v18_apply, val_main_call0_v4_apply, val_main_call0_v3_apply, val_main_c_4_apply,
    val_main_call0_v2_apply, val_main_call0_v1_apply, val_main_call0_v0_apply, val_main_c_3_apply, v9_at]
  rfl

/-- The right tap's position clamped into the row. -/
private theorem v35_at :
    val_main_v35 (F := Ideal) x1 x2 (ix4 b nc z x)
      = Interp.clampW (Interp.pos1 (x2 (ix4 (tabR (x1 (ix1 b))) nc z x))) := by
  rw [val_main_v35_apply, val_main_call2_v4_apply, val_main_call2_v3_apply, val_main_c_9_apply,
    val_main_call2_v2_apply, val_main_call2_v1_apply, val_main_call2_v0_apply, val_main_c_8_apply, v28_at]
  rfl

/-- The left tap's weight. -/
private theorem v23_at :
    val_main_v23 (F := Ideal) x1 x2 (ix4 b nc z x) = Interp.wt0 (x2 (ix4 (tabR (x1 (ix1 b))) nc z x)) := by
  rw [val_main_v23_apply, val_main_v17_apply, mul_bit, val_main_v11_apply, val_main_v10_apply, val_main_cst_apply,
    v8_at, val_main_v16_apply, val_main_v13_apply, val_main_v15_apply, val_main_v12_apply, val_main_c_1_apply,
    val_main_v14_apply, val_main_c_2_apply, v9_at]
  rfl

/-- The right tap's weight. -/
private theorem v40_at :
    val_main_v40 (F := Ideal) x1 x2 (ix4 b nc z x) = Interp.wt1 (x2 (ix4 (tabR (x1 (ix1 b))) nc z x)) := by
  rw [val_main_v40_apply, val_main_v34_apply, mul_bit, v8_at, val_main_v33_apply, val_main_v30_apply,
    val_main_v32_apply, val_main_v29_apply, val_main_c_6_apply, val_main_v31_apply, val_main_c_7_apply, v28_at]
  rfl

end Pos

/-! ## The two taps: the gather along the sample axis reads the row at the clamped position -/

/-- The flat position `z * 256 + x` on the reshaped axis of extent `256 * 256`. -/
private def zx (z x : Fin 256) : Fin 65536 := ⟨z.val * 256 + x.val, by have := z.isLt; have := x.isLt; omega⟩

section Take
variable (x0 : (⟨S2x8x64x2048, .f32⟩ : BufTy).Contents (Elt Ideal)) (x1 : (⟨S2, .i32⟩ : BufTy).Contents (Elt Ideal))
  (x2 : (⟨S4x64x256x256, .f32⟩ : BufTy).Contents (Elt Ideal))
variable (b : Fin 2) (k : Fin 8) (nc : Fin 64) (z x : Fin 256)

/-- The left tap's clamped position, reshaped and broadcast over the 8 rows of a batch. -/
private theorem v20_at :
    val_main_v20 (F := Ideal) x1 x2 (ix4 b k nc (zx z x))
      = Interp.clampW (Interp.pos0 (x2 (ix4 (tabR (x1 (ix1 b))) nc z x))) := by
  have h1 : idx_main_v20 (ix4 b k nc (zx z x)) = ix4 b (0 : Fin 1) nc (zx z x) :=
    funext fun a => Fin.ext (by match a with | ⟨0, _⟩ => rfl | ⟨1, _⟩ => rfl | ⟨2, _⟩ => rfl | ⟨3, _⟩ => rfl)
  have h2 : idx_main_v19 (ix4 b (0 : Fin 1) nc (zx z x)) = ix4 b nc z x :=
    funext fun a => Fin.ext (by
      have hb := b.isLt; have hn := nc.isLt; have hz := z.isLt; have hx := x.isLt
      match a with
      | ⟨0, _⟩ => show (((b.val * 1 + 0) * 64 + nc.val) * 65536 + (z.val * 256 + x.val)) / 4194304 = b.val; omega
      | ⟨1, _⟩ => show (((b.val * 1 + 0) * 64 + nc.val) * 65536 + (z.val * 256 + x.val)) / 65536 % 64 = nc.val; omega
      | ⟨2, _⟩ => show (((b.val * 1 + 0) * 64 + nc.val) * 65536 + (z.val * 256 + x.val)) / 256 % 256 = z.val; omega
      | ⟨3, _⟩ => show (((b.val * 1 + 0) * 64 + nc.val) * 65536 + (z.val * 256 + x.val)) % 256 = x.val; omega)
  rw [val_main_v20_apply, h1, val_main_v19_apply, h2, v18_at]

/-- The left gather's start word: the wrap of a negative index leaves the clamped position alone. -/
private theorem call1_v5_at :
    val_main_call1_v5 (F := Ideal) x1 x2 (ix5 b k nc (zx z x) (0 : Fin 1))
      = Interp.clampW (Interp.pos0 (x2 (ix4 (tabR (x1 (ix1 b))) nc z x))) := by
  have h : idx_main_call1_v5 (ix5 b k nc (zx z x) (0 : Fin 1)) = ix4 b k nc (zx z x) :=
    funext fun a => Fin.ext (by
      have hb := b.isLt; have hk := k.isLt; have hn := nc.isLt; have hz := z.isLt; have hx := x.isLt
      match a with
      | ⟨0, _⟩ => show ((((b.val * 8 + k.val) * 64 + nc.val) * 65536 + (z.val * 256 + x.val)) * 1 + 0) / 33554432 = b.val; omega
      | ⟨1, _⟩ => show ((((b.val * 8 + k.val) * 64 + nc.val) * 65536 + (z.val * 256 + x.val)) * 1 + 0) / 4194304 % 8 = k.val; omega
      | ⟨2, _⟩ => show ((((b.val * 8 + k.val) * 64 + nc.val) * 65536 + (z.val * 256 + x.val)) * 1 + 0) / 65536 % 64 = nc.val; omega
      | ⟨3, _⟩ => show ((((b.val * 8 + k.val) * 64 + nc.val) * 65536 + (z.val * 256 + x.val)) * 1 + 0) % 65536 = z.val * 256 + x.val; omega)
  rw [val_main_call1_v5_apply, h, val_main_call1_v4_apply, val_main_call1_v1_apply, val_main_call1_v3_apply,
    val_main_call1_v0_apply, val_main_call1_c_apply, val_main_call1_v2_apply, val_main_call1_c_0_apply, v20_at]
  exact wrap_of_lt _ (Interp.clampW_lt _)

/-- The left gather's start word is in range, so its fill is never selected. -/
private theorem call1_v12_at :
    val_main_call1_v12 (F := Ideal) x1 x2 (ix4 b k nc (zx z x)) = 1#1 := by
  unfold val_main_call1_v12
  refine (RefGather.reduce_and_unit (val_main_call1_v11 (F := Ideal) x1 x2) b k nc (zx z x)).trans ?_
  rw [val_main_call1_v11_apply, val_main_call1_v7_apply, val_main_call1_v10_apply, val_main_call1_v6_apply,
    val_main_call1_c_2_apply, val_main_call1_v9_apply, val_main_call1_v8_apply, val_main_call1_c_1_apply, call1_v5_at]
  exact inb_of_lt _ (Interp.clampW_lt _)

/-- The left gather reads the signal row at the clamped position. -/
private theorem call1_v13_at :
    val_main_call1_v13 (F := Ideal) x0 x1 x2 (ix4 b k nc (zx z x))
      = x0 (ix4 b k nc (Interp.clampIx (Interp.pos0 (x2 (ix4 (tabR (x1 (ix1 b))) nc z x))))) := by
  unfold val_main_call1_v13
  refine (RefGather.gather_sample x0 (val_main_call1_v5 (F := Ideal) x1 x2) b k nc (zx z x)).trans ?_
  have ht : (⟨min (val_main_call1_v5 (F := Ideal) x1 x2 (ix5 b k nc (zx z x) (0 : Fin 1))).toInt.toNat 2047, by omega⟩ : Fin 2048)
      = Interp.clampIx (Interp.pos0 (x2 (ix4 (tabR (x1 (ix1 b))) nc z x))) :=
    Fin.ext (by
      show min _ 2047 = (Interp.clampW _).toNat
      rw [call1_v5_at]; exact clampNat_of_lt _ (Interp.clampW_lt _))
  exact congrArg (fun t => x0 (ix4 b k nc t)) ht

/-- The left tap's sample, on the flat axis. -/
private theorem v21_at :
    val_main_v21 (F := Ideal) x0 x1 x2 (ix4 b k nc (zx z x))
      = x0 (ix4 b k nc (Interp.clampIx (Interp.pos0 (x2 (ix4 (tabR (x1 (ix1 b))) nc z x))))) := by
  rw [val_main_v21_apply, call1_v12_at, select_one, call1_v13_at]

/-- The left tap's sample at `(b, k, channel, z, x)`. -/
private theorem v22_at :
    val_main_v22 (F := Ideal) x0 x1 x2 (ix5 b k nc z x)
      = x0 (ix4 b k nc (Interp.clampIx (Interp.pos0 (x2 (ix4 (tabR (x1 (ix1 b))) nc z x))))) := by
  have h : idx_main_v22 (ix5 b k nc z x) = ix4 b k nc (zx z x) :=
    funext fun a => Fin.ext (by
      have hb := b.isLt; have hk := k.isLt; have hn := nc.isLt; have hz := z.isLt; have hx := x.isLt
      match a with
      | ⟨0, _⟩ => show ((((b.val * 8 + k.val) * 64 + nc.val) * 256 + z.val) * 256 + x.val) / 33554432 = b.val; omega
      | ⟨1, _⟩ => show ((((b.val * 8 + k.val) * 64 + nc.val) * 256 + z.val) * 256 + x.val) / 4194304 % 8 = k.val; omega
      | ⟨2, _⟩ => show ((((b.val * 8 + k.val) * 64 + nc.val) * 256 + z.val) * 256 + x.val) / 65536 % 64 = nc.val; omega
      | ⟨3, _⟩ => show ((((b.val * 8 + k.val) * 64 + nc.val) * 256 + z.val) * 256 + x.val) % 65536 = z.val * 256 + x.val; omega)
  rw [val_main_v22_apply, h, v21_at]

/-- The left tap's weight, broadcast over the 8 rows of a batch. -/
private theorem v25_at :
    val_main_v25 (F := Ideal) x1 x2 (ix5 b k nc z x) = Interp.wt0 (x2 (ix4 (tabR (x1 (ix1 b))) nc z x)) := by
  have h1 : idx_main_v25 (ix5 b k nc z x) = ix5 b (0 : Fin 1) nc z x :=
    funext fun a => Fin.ext (by match a with | ⟨0, _⟩ => rfl | ⟨1, _⟩ => rfl | ⟨2, _⟩ => rfl | ⟨3, _⟩ => rfl | ⟨4, _⟩ => rfl)
  have h2 : idx_main_v24 (ix5 b (0 : Fin 1) nc z x) = ix4 b nc z x :=
    funext fun a => Fin.ext (by match a with | ⟨0, _⟩ => rfl | ⟨1, _⟩ => rfl | ⟨2, _⟩ => rfl | ⟨3, _⟩ => rfl)
  rw [val_main_v25_apply, h1, val_main_v24_apply, h2, v23_at]

/-- The left tap's product. -/
private theorem v26_at :
    val_main_v26 (F := Ideal) x0 x1 x2 (ix5 b k nc z x)
      = x0 (ix4 b k nc (Interp.clampIx (Interp.pos0 (x2 (ix4 (tabR (x1 (ix1 b))) nc z x)))))
        * Interp.wt0 (x2 (ix4 (tabR (x1 (ix1 b))) nc z x)) := by
  rw [val_main_v26_apply, v22_at, v25_at]; rfl

/-- The right tap's clamped position, reshaped and broadcast over the 8 rows of a batch. -/
private theorem v37_at :
    val_main_v37 (F := Ideal) x1 x2 (ix4 b k nc (zx z x))
      = Interp.clampW (Interp.pos1 (x2 (ix4 (tabR (x1 (ix1 b))) nc z x))) := by
  have h1 : idx_main_v37 (ix4 b k nc (zx z x)) = ix4 b (0 : Fin 1) nc (zx z x) :=
    funext fun a => Fin.ext (by match a with | ⟨0, _⟩ => rfl | ⟨1, _⟩ => rfl | ⟨2, _⟩ => rfl | ⟨3, _⟩ => rfl)
  have h2 : idx_main_v36 (ix4 b (0 : Fin 1) nc (zx z x)) = ix4 b nc z x :=
    funext fun a => Fin.ext (by
      have hb := b.isLt; have hn := nc.isLt; have hz := z.isLt; have hx := x.isLt
      match a with
      | ⟨0, _⟩ => show (((b.val * 1 + 0) * 64 + nc.val) * 65536 + (z.val * 256 + x.val)) / 4194304 = b.val; omega
      | ⟨1, _⟩ => show (((b.val * 1 + 0) * 64 + nc.val) * 65536 + (z.val * 256 + x.val)) / 65536 % 64 = nc.val; omega
      | ⟨2, _⟩ => show (((b.val * 1 + 0) * 64 + nc.val) * 65536 + (z.val * 256 + x.val)) / 256 % 256 = z.val; omega
      | ⟨3, _⟩ => show (((b.val * 1 + 0) * 64 + nc.val) * 65536 + (z.val * 256 + x.val)) % 256 = x.val; omega)
  rw [val_main_v37_apply, h1, val_main_v36_apply, h2, v35_at]

/-- The right gather's start word: the wrap of a negative index leaves the clamped position alone. -/
private theorem call3_v5_at :
    val_main_call3_v5 (F := Ideal) x1 x2 (ix5 b k nc (zx z x) (0 : Fin 1))
      = Interp.clampW (Interp.pos1 (x2 (ix4 (tabR (x1 (ix1 b))) nc z x))) := by
  have h : idx_main_call3_v5 (ix5 b k nc (zx z x) (0 : Fin 1)) = ix4 b k nc (zx z x) :=
    funext fun a => Fin.ext (by
      have hb := b.isLt; have hk := k.isLt; have hn := nc.isLt; have hz := z.isLt; have hx := x.isLt
      match a with
      | ⟨0, _⟩ => show ((((b.val * 8 + k.val) * 64 + nc.val) * 65536 + (z.val * 256 + x.val)) * 1 + 0) / 33554432 = b.val; omega
      | ⟨1, _⟩ => show ((((b.val * 8 + k.val) * 64 + nc.val) * 65536 + (z.val * 256 + x.val)) * 1 + 0) / 4194304 % 8 = k.val; omega
      | ⟨2, _⟩ => show ((((b.val * 8 + k.val) * 64 + nc.val) * 65536 + (z.val * 256 + x.val)) * 1 + 0) / 65536 % 64 = nc.val; omega
      | ⟨3, _⟩ => show ((((b.val * 8 + k.val) * 64 + nc.val) * 65536 + (z.val * 256 + x.val)) * 1 + 0) % 65536 = z.val * 256 + x.val; omega)
  rw [val_main_call3_v5_apply, h, val_main_call3_v4_apply, val_main_call3_v1_apply, val_main_call3_v3_apply,
    val_main_call3_v0_apply, val_main_call3_c_apply, val_main_call3_v2_apply, val_main_call3_c_0_apply, v37_at]
  exact wrap_of_lt _ (Interp.clampW_lt _)

/-- The right gather's start word is in range, so its fill is never selected. -/
private theorem call3_v12_at :
    val_main_call3_v12 (F := Ideal) x1 x2 (ix4 b k nc (zx z x)) = 1#1 := by
  unfold val_main_call3_v12
  refine (RefGather.reduce_and_unit (val_main_call3_v11 (F := Ideal) x1 x2) b k nc (zx z x)).trans ?_
  rw [val_main_call3_v11_apply, val_main_call3_v7_apply, val_main_call3_v10_apply, val_main_call3_v6_apply,
    val_main_call3_c_2_apply, val_main_call3_v9_apply, val_main_call3_v8_apply, val_main_call3_c_1_apply, call3_v5_at]
  exact inb_of_lt _ (Interp.clampW_lt _)

/-- The right gather reads the signal row at the clamped position. -/
private theorem call3_v13_at :
    val_main_call3_v13 (F := Ideal) x0 x1 x2 (ix4 b k nc (zx z x))
      = x0 (ix4 b k nc (Interp.clampIx (Interp.pos1 (x2 (ix4 (tabR (x1 (ix1 b))) nc z x))))) := by
  unfold val_main_call3_v13
  refine (RefGather.gather_sample x0 (val_main_call3_v5 (F := Ideal) x1 x2) b k nc (zx z x)).trans ?_
  have ht : (⟨min (val_main_call3_v5 (F := Ideal) x1 x2 (ix5 b k nc (zx z x) (0 : Fin 1))).toInt.toNat 2047, by omega⟩ : Fin 2048)
      = Interp.clampIx (Interp.pos1 (x2 (ix4 (tabR (x1 (ix1 b))) nc z x))) :=
    Fin.ext (by
      show min _ 2047 = (Interp.clampW _).toNat
      rw [call3_v5_at]; exact clampNat_of_lt _ (Interp.clampW_lt _))
  exact congrArg (fun t => x0 (ix4 b k nc t)) ht

/-- The right tap's sample, on the flat axis. -/
private theorem v38_at :
    val_main_v38 (F := Ideal) x0 x1 x2 (ix4 b k nc (zx z x))
      = x0 (ix4 b k nc (Interp.clampIx (Interp.pos1 (x2 (ix4 (tabR (x1 (ix1 b))) nc z x))))) := by
  rw [val_main_v38_apply, call3_v12_at, select_one, call3_v13_at]

/-- The right tap's sample at `(b, k, channel, z, x)`. -/
private theorem v39_at :
    val_main_v39 (F := Ideal) x0 x1 x2 (ix5 b k nc z x)
      = x0 (ix4 b k nc (Interp.clampIx (Interp.pos1 (x2 (ix4 (tabR (x1 (ix1 b))) nc z x))))) := by
  have h : idx_main_v39 (ix5 b k nc z x) = ix4 b k nc (zx z x) :=
    funext fun a => Fin.ext (by
      have hb := b.isLt; have hk := k.isLt; have hn := nc.isLt; have hz := z.isLt; have hx := x.isLt
      match a with
      | ⟨0, _⟩ => show ((((b.val * 8 + k.val) * 64 + nc.val) * 256 + z.val) * 256 + x.val) / 33554432 = b.val; omega
      | ⟨1, _⟩ => show ((((b.val * 8 + k.val) * 64 + nc.val) * 256 + z.val) * 256 + x.val) / 4194304 % 8 = k.val; omega
      | ⟨2, _⟩ => show ((((b.val * 8 + k.val) * 64 + nc.val) * 256 + z.val) * 256 + x.val) / 65536 % 64 = nc.val; omega
      | ⟨3, _⟩ => show ((((b.val * 8 + k.val) * 64 + nc.val) * 256 + z.val) * 256 + x.val) % 65536 = z.val * 256 + x.val; omega)
  rw [val_main_v39_apply, h, v38_at]

/-- The right tap's weight, broadcast over the 8 rows of a batch. -/
private theorem v42_at :
    val_main_v42 (F := Ideal) x1 x2 (ix5 b k nc z x) = Interp.wt1 (x2 (ix4 (tabR (x1 (ix1 b))) nc z x)) := by
  have h1 : idx_main_v42 (ix5 b k nc z x) = ix5 b (0 : Fin 1) nc z x :=
    funext fun a => Fin.ext (by match a with | ⟨0, _⟩ => rfl | ⟨1, _⟩ => rfl | ⟨2, _⟩ => rfl | ⟨3, _⟩ => rfl | ⟨4, _⟩ => rfl)
  have h2 : idx_main_v41 (ix5 b (0 : Fin 1) nc z x) = ix4 b nc z x :=
    funext fun a => Fin.ext (by match a with | ⟨0, _⟩ => rfl | ⟨1, _⟩ => rfl | ⟨2, _⟩ => rfl | ⟨3, _⟩ => rfl)
  rw [val_main_v42_apply, h1, val_main_v41_apply, h2, v40_at]

/-- The right tap's product. -/
private theorem v43_at :
    val_main_v43 (F := Ideal) x0 x1 x2 (ix5 b k nc z x)
      = x0 (ix4 b k nc (Interp.clampIx (Interp.pos1 (x2 (ix4 (tabR (x1 (ix1 b))) nc z x)))))
        * Interp.wt1 (x2 (ix4 (tabR (x1 (ix1 b))) nc z x)) := by
  rw [val_main_v43_apply, v39_at, v42_at]; rfl

/-- One channel's term: the interpolated value of the row at the delay. -/
private theorem v44_at :
    val_main_v44 (F := Ideal) x0 x1 x2 (ix5 b k nc z x)
      = Interp.tap (fun s => x0 (ix4 b k nc s)) (x2 (ix4 (tabR (x1 (ix1 b))) nc z x)) := by
  rw [val_main_v44_apply, v26_at, v43_at]; rfl

end Take

/-- THE REFERENCE'S VALUE: its result, as a function of its three arguments, is the interpolation sum. -/
theorem ref_val (x0 : (⟨S2x8x64x2048, .f32⟩ : BufTy).Contents (Elt Ideal)) (x1 : (⟨S2, .i32⟩ : BufTy).Contents (Elt Ideal))
    (x2 : (⟨S4x64x256x256, .f32⟩ : BufTy).Contents (Elt Ideal)) :
    val_main_v46 (F := Ideal) x0 x1 x2 = Interp.G (fun b => tabR (x1 (ix1 b))) x0 x2 := by
  funext j
  obtain ⟨b, z, x, k, rfl⟩ : ∃ (b : Fin 2) (z x : Fin 256) (k : Fin 8), j = ix4 b z x k :=
    ⟨j 0, j 1, j 2, j 3, eq_ix4 j⟩
  rw [val_main_v46_apply, val_main_v45_apply, val_main_cst_10_apply, Ideal.ofBits_def, Ideal.ofBits_zero_f32, zero_add]
  show _ = ∑ nc : Fin 64, Interp.tap (fun s => x0 (ix4 b k nc s)) (x2 (ix4 (tabR (x1 (ix1 b))) nc z x))
  refine Finset.sum_congr rfl fun nc _ => ?_
  have h : idx_main_v45 (idx_main_v46 (ix4 b z x k)) nc = ix5 b k nc z x :=
    funext fun a => Fin.ext (by match a with | ⟨0, _⟩ => rfl | ⟨1, _⟩ => rfl | ⟨2, _⟩ => rfl | ⟨3, _⟩ => rfl | ⟨4, _⟩ => rfl)
  rw [h, v44_at]

end Cert.ReferenceIdeal.RefVal

end
-- ==== Proof.PreDecode.lean ====
/-
  What the precondition says of the batch numbers: each is a delay-table number, 0 ≤ ids[b] < 4 (signed).
-/
import proofs.«423647_j15058155340289_3_alg».proof.Defs
import proofs.«423647_j15058155340289_3_alg».proof.Proof.Gen.Pre_finite_inputs
import Idealize.ShloMosaic.Lib.ValueIdx
import Idealize.ShloMosaic.Lib.ReduceAll

set_option maxRecDepth 16384

noncomputable section

open scoped BigOperators

namespace Cert.PreDecode

open Idealize.ShloMosaic Idealize.ShloMosaic.ValueIdx

variable {F : FTy → Type} [FloatOps F]

/-- If the precondition's predicate is all ones, every batch number is in `0 … 3`: not negative and below 4 (signed). -/
theorem ids_range (a0 : FVec F Cert.Pre_finite_inputs.S2x8x64x2048 .f32) (a1 : IVec Cert.Pre_finite_inputs.S2 32)
    (a2 : FVec F Cert.Pre_finite_inputs.S4x64x256x256 .f32)
    (h : Cert.Pre_finite_inputs.fn (F := F) a0 a1 a2 = fun _ => 1#1) (b : Fin 2) :
    IntOp.cmpi .sge (a1 (ix1 b)) 0#32 = 1#1 ∧ IntOp.cmpi .slt (a1 (ix1 b)) 4#32 = 1#1 := by
  -- the scalar shape has one index
  haveI : Subsingleton Cert.Pre_finite_inputs.S_.Idx := ⟨fun a b => funext fun d => d.elim0⟩
  -- the predicate at its one index: a conjunction of the two finiteness bits and the range bit
  have h0 := congrFun h ValueIdx.ix0
  dsimp only [Cert.Pre_finite_inputs.fn] at h0
  -- the last conjunct: the "all" over the two batch numbers
  have hall := (IntOp.andi_eq_one.1 h0).2
  -- an "all" that is one has a one at every index, in particular at batch `b`
  have hb := Host.reduce_andi_all _ _ _ _ _ hall (ix1 b)
  -- at `b` the bit is the conjunction of the two comparisons against the splatted constants 0 and 4
  exact IntOp.andi_eq_one.1 hb

end Cert.PreDecode

end
-- ==== Proof.lean ====
/-
  The certificate of the interpolation kernel against its jnp reference, over the extended reals.

  Both programs compute, for every batch b, image point (z, x) and signal row k, the sum over the 64
  channels of the linear interpolation (two taps, zero weight for a tap outside the row) of the signal
  row (b, k, channel) at the fractional delay that the batch's delay table holds for (channel, z, x).
  The kernel gathers by a one-hot matrix product split into a lane part (the position's low seven bits)
  and a sublane part (its quotient by 128) and accumulates the channels in a loop; the reference gathers
  by index and reduces over the channel axis. The kernel picks the batch's delay table by clamping the
  batch's number into 0 … 3, the reference by the indexing's wrap of negative numbers and clamp; under the
  precondition (every number is a table number, 0 ≤ ids[b] < 4) both pick the number itself.

  The frames: the kernel programs' are the generated ones, whose side condition (every block the table of
  numbers selects lies inside the delay tables) holds of every memory because the host line clamps the
  numbers; the reference's is its run with the result forgotten.
-/
import proofs.«423647_j15058155340289_3_alg».proof.Defs
import proofs.«423647_j15058155340289_3_alg».proof.Proof.Gen.Kernel.Frame
import proofs.«423647_j15058155340289_3_alg».proof.Proof.HostPreK
import proofs.«423647_j15058155340289_3_alg».proof.Proof.KernelRun
import proofs.«423647_j15058155340289_3_alg».proof.Proof.RefRun
import proofs.«423647_j15058155340289_3_alg».proof.Proof.RefVal
import proofs.«423647_j15058155340289_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- A batch number that is a table number is picked as it is by both programs: the kernel's clamp and the
    reference's wrap-and-clamp leave it. -/
theorem ofBool_one (b : Bool) : BitVec.ofBool b = 1#1 ↔ b = true := by cases b <;> decide

theorem tab_eq (w : BitVec 32) (h : IntOp.cmpi .sge w 0#32 = 1#1 ∧ IntOp.cmpi .slt w 4#32 = 1#1) :
    Cert.ReferenceIdeal.RefVal.tabR w = Cert.KernelIdeal.KernelRun.tabK w := by
  obtain ⟨hge, hlt⟩ := h
  have h0 : (0#32 : BitVec 32).toInt = 0 := by decide
  have h3 : (3#32 : BitVec 32).toInt = 3 := by decide
  have h4 : (4#32 : BitVec 32).toInt = 4 := by decide
  have hge' : 0 ≤ w.toInt := by
    have e : BitVec.ofBool ((0#32 : BitVec 32).sle w) = 1#1 := hge
    rw [ofBool_one] at e
    simp only [BitVec.sle, decide_eq_true_eq, h0] at e
    exact e
  have hlt' : w.toInt < 4 := by
    have e : BitVec.ofBool (w.slt (4#32 : BitVec 32)) = 1#1 := hlt
    rw [ofBool_one] at e
    simp only [BitVec.slt, decide_eq_true_eq, h4] at e
    exact e
  have hn : ¬ (IntOp.cmpi .slt w 0#32 = 1) := by
    intro e
    have e' : BitVec.ofBool (w.slt (0#32 : BitVec 32)) = 1#1 := e
    rw [ofBool_one] at e'
    simp only [BitVec.slt, decide_eq_true_eq, h0] at e'
    omega
  have hmax : IntOp.maxsi 0#32 w = w := by
    unfold IntOp.maxsi
    rw [if_neg]
    simp only [BitVec.slt, decide_eq_true_eq, h0]; omega
  have hmin : IntOp.minsi 3#32 w = w := by
    unfold IntOp.minsi
    rw [if_neg]
    simp only [BitVec.slt, decide_eq_true_eq, h3]; omega
  apply Fin.ext
  show min (Scalar.select (IntOp.cmpi .slt w 0#32) (IntOp.addi w 4#32) w).toInt.toNat 3
      = min (IntOp.minsi 3#32 (IntOp.maxsi 0#32 w)).toNat 3
  rw [show Scalar.select (IntOp.cmpi .slt w 0#32) (IntOp.addi w 4#32) w = w from if_neg hn, hmax, hmin]
  have e := BitVec.toInt_eq_toNat_cond w
  have hw := w.isLt
  split at e <;> omega

theorem frame_p : Cert.frame_Kernel := fun m ρ _ => Cert.Kernel.Gen.frame m ρ (Cert.Kernel.HostPre.ok m)

theorem frame_pi : Cert.frame_KernelIdeal := fun m ρ _ => Cert.KernelIdeal.Gen.frame m ρ (Cert.KernelIdeal.HostPre.ok m)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The two idealized programs, run from memories that agree on the arguments, end with the same result: the
    interpolation sum at the batch numbers themselves. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefVal.ref_val, (hagree c).1, (hagree c).2.1, (hagree c).2.2]
  refine congrArg (fun t => Cert.Interp.G t _ _) (funext fun b => ?_)
  exact tab_eq _ (Cert.PreDecode.ids_range _ _ _ (hpre c) b)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
